-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_cst_9)) (v3 : (c : Dev Cert.KernelIdeal.nD) → Buf (Elt Ideal) ((c.tc : Thread Cert.KernelIdeal.nD Cert.KernelIdeal.τ).loc Cert.KernelIdeal.main_v26)) (v4 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_cst_9) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_v2_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_cst_24) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v51) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x512 : Shape := ⟨3, ![4096, 32, 512]⟩
abbrev S4096x32 : Shape := ⟨2, ![4096, 32]⟩
abbrev S4096 : Shape := ⟨1, ![4096]⟩
abbrev S4096x512 : Shape := ⟨2, ![4096, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S_ : Shape := ⟨0, ![]⟩

class Facts : Prop where
  bcast_S_S4096x32x512 : S_.BroadcastsInDim S4096x32x512 (![] : Fin 0 → Fin S4096x32x512.rank)
  reducesTo_S4096x32x512_S_d0_1_2 : S4096x32x512.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S512x1 .f32) (main_arg12 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x1 .f32 := Host.absf main_arg11
  let main_cst_20 : FVec F S_ .f32 := constant S_ .f32 0x7F800000#32
  let main_v55 : FVec F S512x1 .f32 := broadcastInDim S512x1 ![] bcast_S_S512x1 main_cst_20
  let main_v56 : IVec S512x1 1 := cmpf .olt main_v54 main_v55
  let main_c_21 : IVec S_ 1 := constantI S_ 1 1#1
  let main_v57 : IVec S_ 1 := (fun x v => Host.reduce IntOp.andi x v reducesTo_S512x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S1024x512 .f32) (main_arg8 : FVec F S512 .f32) (main_arg9 : FVec F S512 .f32) (main_arg10 : FVec F S512 .f32) (main_arg11 : FVec F S512x1 .f32) (main_arg12 : FVec F S1 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S4096x32 .f32) (main_arg5 : FVec F S512 .f32) (main_arg6 : FVec F S512 .f32) (main_arg7 : FVec F S1024x512 .f32) (main_arg8 : FVec F S512 .f32) (main_arg9 : FVec F S512 .f32) (main_arg10 : FVec F S512 .f32) (main_arg11 : FVec F S512x1 .f32) (main_arg12 : FVec F S1 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x32x512 .f32) (main_arg1 : FVec F S4096x32 .f32) (main_arg2 : FVec F S4096 .f32) (main_arg3 : FVec F S4096x512 .f32) (main_arg4 : FVec F S4096x32 .f32) (main_arg5 : FVec F S512 .f32) (main_arg6 : FVec F S512 .f32) (main_arg7 : FVec F S1024x512 .f32) (main_arg8 : FVec F S512 .f32) (main_arg9 : FVec F S512 .f32) (main_arg10 : FVec F S512 .f32) (main_arg11 : FVec F S512x1 .f32) (main_arg12 : FVec F S1 .f32) (main_arg13 : IVec S4096x32 32) : IVec S_ 1 :=
  let main_v0 : FVec F S4096x32x512 .f32 := Host.absf main_arg0
  let main_cst : FVec F S_ .f32 := constant S_ .f32 0x7F800000#32
  let main_v1 : FVec F S4096x32x512 .f32 := broadcastInDim S4096x32x512 ![] bcast_S_S4096x32x512 main_cst
  let main_v2 : IVec S4096x32x512 1 := cmpf .olt main_v0 main_v1
  let main_c : IVec S_ 1 := constantI S_ 1 1#1
  let main_v3 : IVec S_ 1 := (fun x v => Host.reduce IntOp.andi x v reducesTo_S4096x32x512_S_d0_1_2 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_arg9 main_arg10 main_arg11 main_arg12 main_v13 main_v16
-- ==== Kernel.lean ====
abbrev S4096x32x512 : Shape := ⟨3, ![4096, 32, 512]⟩
abbrev S4096x32 : Shape := ⟨2, ![4096, 32]⟩
abbrev S4096 : Shape := ⟨1, ![4096]⟩
abbrev S4096x512 : Shape := ⟨2, ![4096, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S4096x1 : Shape := ⟨2, ![4096, 1]⟩
abbrev S32x32x512 : Shape := ⟨3, ![32, 32, 512]⟩
abbrev S32x32 : Shape := ⟨2, ![32, 32]⟩
abbrev S32x1 : Shape := ⟨2, ![32, 1]⟩
abbrev S32x512 : Shape := ⟨2, ![32, 512]⟩
abbrev S32x32x1 : Shape := ⟨3, ![32, 32, 1]⟩
abbrev S1x1x512 : Shape := ⟨3, ![1, 1, 512]⟩
abbrev S512x512 : Shape := ⟨2, ![512, 512]⟩
abbrev S1x512 : Shape := ⟨2, ![1, 512]⟩
abbrev S32x1x512 : Shape := ⟨3, ![32, 1, 512]⟩
abbrev S1x1 : Shape := ⟨2, ![1, 1]⟩
abbrev S_ : Shape := ⟨0, ![]⟩
abbrev S131072 : Shape := ⟨1, ![131072]⟩
abbrev S131072x1 : Shape := ⟨2, ![131072, 1]⟩

abbrev nBuf : Space → Nat
  | .hbm => 55
  | .vmem => 24
  | .smem => 0
  | _ => 0

abbrev bufTy : (tb : Table) → Fin (tcTables nBuf tb) → BufTy
  | .hbm, ⟨0, _⟩ => ⟨S4096x32x512, .f32⟩
  | .hbm, ⟨1, _⟩ => ⟨S4096x32, .f32⟩
  | .hbm, ⟨2, _⟩ => ⟨S4096, .f32⟩
  | .hbm, ⟨3, _⟩ => ⟨S4096x512, .f32⟩
  | .hbm, ⟨4, _⟩ => ⟨S4096x32, .f32⟩
  | .hbm, ⟨5, _⟩ => ⟨S512, .f32⟩
  | .hbm, ⟨6, _⟩ => ⟨S512, .f32⟩
  | .hbm, ⟨7, _⟩ => ⟨S1024x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512x1, .f32⟩
  | .hbm, ⟨12, _⟩ => ⟨S1, .f32⟩
  | .hbm, ⟨13, _⟩ => ⟨S4096x32, .i32⟩
  | .hbm, ⟨14, _⟩ => ⟨S4096x1, .f32⟩
  | .hbm, ⟨15, _⟩ => ⟨S512, .f32⟩
  | .hbm, ⟨16, _⟩ => ⟨S4096x32, .f32⟩
  | .hbm, ⟨17, _⟩ => ⟨S4096x32, .f32⟩
  | .hbm, ⟨18, _⟩ => ⟨S4096x512, .f32⟩
  | .hbm, ⟨19, _⟩ => ⟨S_, .f32⟩
  | .hbm, ⟨20, _⟩ => ⟨S4096x32, .f32⟩
  | .hbm, ⟨21, _⟩ => ⟨S4096x32, .f32⟩
  | .hbm, ⟨22, _⟩ => ⟨S_, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S_, .f32⟩
  | .hbm, ⟨28, _⟩ => ⟨S4096x32, .f32⟩
  | .hbm, ⟨29, _⟩ => ⟨S4096x32, .f32⟩
  | .hbm, ⟨30, _⟩ => ⟨S_, .f32⟩
  | .hbm, ⟨31, _⟩ => ⟨S4096x32, .f32⟩
  | .hbm, ⟨32, _⟩ => ⟨S4096x32, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S131072, .f32⟩
  | .hbm, ⟨43, _⟩ => ⟨S131072, .i32⟩
  | .hbm, ⟨44, _⟩ => ⟨S131072, .f32⟩
  | .hbm, ⟨45, _⟩ => ⟨S_, .i32⟩
  | .hbm, ⟨46, _⟩ => ⟨S131072, .i32⟩
  | .hbm, ⟨47, _⟩ => ⟨S131072, .i1⟩
  | .hbm, ⟨48, _⟩ => ⟨S_, .i32⟩
  | .hbm, ⟨49, _⟩ => ⟨S131072, .i32⟩
  | .hbm, ⟨50, _⟩ => ⟨S131072, .i32⟩
  | .hbm, ⟨51, _⟩ => ⟨S131072, .i32⟩
  | .hbm, ⟨52, _⟩ => ⟨S131072x1, .i32⟩
  | .hbm, ⟨53, _⟩ => ⟨S131072, .f32⟩
  | .hbm, ⟨54, _⟩ => ⟨S_, .f32⟩
  | .local _ .vmem, ⟨0, _⟩ => ⟨S32x32x512, .f32⟩
  | .local _ .vmem, ⟨1, _⟩ => ⟨S32x32x512, .f32⟩
  | .local _ .vmem, ⟨2, _⟩ => ⟨S32x32, .f32⟩
  | .local _ .vmem, ⟨3, _⟩ => ⟨S32x32, .f32⟩
  | .local _ .vmem, ⟨4, _⟩ => ⟨S32x1, .f32⟩
  | .local _ .vmem, ⟨5, _⟩ => ⟨S32x1, .f32⟩
  | .local _ .vmem, ⟨6, _⟩ => ⟨S32x512, .f32⟩
  | .local _ .vmem, ⟨7, _⟩ => ⟨S32x512, .f32⟩
  | .local _ .vmem, ⟨8, _⟩ => ⟨S32x32, .f32⟩
  | .local _ .vmem, ⟨9, _⟩ => ⟨S32x32, .f32⟩
  | .local _ .vmem, ⟨10, _⟩ => ⟨S512, .f32⟩
  | .local _ .vmem, ⟨11, _⟩ => ⟨S512, .f32⟩
  | .local _ .vmem, ⟨12, _⟩ => ⟨S1024x512, .f32⟩
  | .local _ .vmem, ⟨13, _⟩ => ⟨S512, .f32⟩
  | .local _ .vmem, ⟨14, _⟩ => ⟨S512, .f32⟩
  | .local _ .vmem, ⟨15, _⟩ => ⟨S512, .f32⟩
  | .local _ .vmem, ⟨16, _⟩ => ⟨S512, .f32⟩
  | .local _ .vmem, ⟨17, _⟩ => ⟨S1, .f32⟩
  | .local _ .vmem, ⟨18, _⟩ => ⟨S32x32, .f32⟩
  | .local _ .vmem, ⟨19, _⟩ => ⟨S32x32, .f32⟩
  | .local _ .vmem, ⟨20, _⟩ => ⟨S32x32, .f32⟩
  | .local _ .vmem, ⟨21, _⟩ => ⟨S32x32, .f32⟩
  | .local _ .vmem, ⟨22, _⟩ => ⟨S32x512, .f32⟩
  | .local _ .vmem, ⟨23, _⟩ => ⟨S32x512, .f32⟩
  | _, _ => ⟨S4096x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2_0 : Ref sig .tc := ⟨.hbm, 16, rfl⟩
abbrev main_v2_1 : Ref sig .tc := ⟨.hbm, 17, rfl⟩
abbrev main_v2_2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_cst_4 : Ref sig .tc := ⟨.hbm, 35, rfl⟩
abbrev main_v14 : Ref sig .tc := ⟨.hbm, 36, rfl⟩
abbrev main_cst_5 : Ref sig .tc := ⟨.hbm, 37, rfl⟩
abbrev main_v15 : Ref sig .tc := ⟨.hbm, 38, rfl⟩
abbrev main_cst_6 : Ref sig .tc := ⟨.hbm, 39, rfl⟩
abbrev main_v16 : Ref sig .tc := ⟨.hbm, 40, rfl⟩
abbrev main_cst_7 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c : Ref sig .tc := ⟨.hbm, 45, rfl⟩
abbrev main_v20 : Ref sig .tc := ⟨.hbm, 46, rfl⟩
abbrev main_v21 : Ref sig .tc := ⟨.hbm, 47, rfl⟩
abbrev main_c_8 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_9 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S32x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S4096_S4096x1 : S4096.ShapeCasts S4096x1
  shapeCasts_S512x1_S512 : S512x1.ShapeCasts S512
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x32 : S32x1.Broadcasts S32x32
  inb_S512_S512_0 : ∀ a, (![0] : Fin 1 → Nat) a + S512.size a ≤ S512.size a
  h_S512 : 0 < S512.numel
  shapeCasts_S32x32_S32x32x1 : S32x32.ShapeCasts S32x32x1
  shapeCasts_S512_S1x1x512 : S512.ShapeCasts S1x1x512
  broadcasts_S32x32x1_S32x32x512 : S32x32x1.Broadcasts S32x32x512
  broadcasts_S1x1x512_S32x32x512 : S1x1x512.Broadcasts S32x32x512
  inb_S32x32x512_S32x32x512_0_0_0 : ∀ a, (![0, 0, 0] : Fin 3 → Nat) a + S32x32x512.size a ≤ S32x32x512.size a
  h_S32x32x512 : 0 < S32x32x512.numel
  shapeCasts_S32x32x512_S1024x512 : S32x32x512.ShapeCasts S1024x512
  inb_S1024x512_S512x512_0_0 : ∀ a, (![0, 0] : Fin 2 → Nat) a + S512x512.size a ≤ S1024x512.size a
  h_S512x512 : 0 < S512x512.numel
  inb_S1024x512_S512x512_512_0 : ∀ a, (![512, 0] : Fin 2 → Nat) a + S512x512.size a ≤ S1024x512.size a
  bitsLt_bf16_f32 : FTy.bits .bf16 < FTy.bits .f32
  inb_S32x512_S32x512_0_0 : ∀ a, (![0, 0] : Fin 2 → Nat) a + S32x512.size a ≤ S32x512.size a
  h_S32x512 : 0 < S32x512.numel
  shapeCasts_S512_S1x512 : S512.ShapeCasts S1x512
  broadcasts_S1x512_S32x512 : S1x512.Broadcasts S32x512
  shapeCasts_S1024x512_S32x32x512 : S1024x512.ShapeCasts S32x32x512
  shapeCasts_S32x512_S32x1x512 : S32x512.ShapeCasts S32x1x512
  broadcasts_S32x1x512_S32x32x512 : S32x1x512.Broadcasts S32x32x512
  reduces_S32x32x512_S32x32 : S32x32x512.Reduces [2] S32x32
  shapeCasts_S512_S512 : S512.ShapeCasts S512
  inb_S1_S1_0 : ∀ a, (![0] : Fin 1 → Nat) a + S1.size a ≤ S1.size a
  h_S1 : 0 < S1.numel
  shapeCasts_S1_S1x1 : S1.ShapeCasts S1x1
  broadcasts_S1x1_S32x32 : S1x1.Broadcasts S32x32
  reduces_S32x32x512_S32x512 : S32x32x512.Reduces [1] S32x512
  natLt_1_32 : 1 < 32
  bcast_S_S4096x32 : S_.BroadcastsInDim S4096x32 (![] : Fin 0 → Fin S4096x32.rank)
  reducesTo_S4096x32_S_d0_1 : S4096x32.ReducesTo [0, 1] S_
  h_S_ : 0 < S_.numel
  bcast_S_S131072 : S_.BroadcastsInDim S131072 (![] : Fin 0 → Fin S131072.rank)
  shapeCasts_S4096x32_S131072 : S4096x32.ShapeCasts S131072
  bcast_S131072_S131072x1_0 : S131072.BroadcastsInDim S131072x1 (![0] : Fin 1 → Fin S131072x1.rank)
  dot_S1024x512_S512x512_S1024x512_1_0_0_1_n_n_wf : DotDims.WF S1024x512 S512x512 S1024x512 [1] [0] [0] [1] [] []
  dot_S32x512_S512x512_S32x512_1_0_0_1_n_n_wf : DotDims.WF S32x512 S512x512 S32x512 [1] [0] [0] [1] [] []
  scatter_S131072_S131072x1_S131072_n_0_0_1_wf : ScatterDims.WF S131072 S131072x1 S131072 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x512.size a ≤ S4096x32x512.size a
  hwx0_0 : ∀ i : grid0.Coords, EltTy.bits .f32 = 32 ∨ (Rect.block (s := S4096x32x512) S32x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S4096x32.size a
  hwx0_1 : ∀ i : grid0.Coords, EltTy.bits .f32 = 32 ∨ (Rect.block (s := S4096x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S4096x1.size a
  hwx0_2 : ∀ i : grid0.Coords, EltTy.bits .f32 = 32 ∨ (Rect.block (s := S4096x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S4096x512.size a
  hwx0_3 : ∀ i : grid0.Coords, EltTy.bits .f32 = 32 ∨ (Rect.block (s := S4096x512) S32x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S4096x32.size a
  hwx0_4 : ∀ i : grid0.Coords, EltTy.bits .f32 = 32 ∨ (Rect.block (s := S4096x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .f32 = 32 ∨ (Rect.block (s := S1024x512) S1024x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S32x32.size a ≤ S4096x32.size a
  hwx0_13 : ∀ i : grid0.Coords, EltTy.bits .f32 = 32 ∨ (Rect.block (s := S4096x32) S32x32.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S32x32.size a ≤ S4096x32.size a
  hwx0_14 : ∀ i : grid0.Coords, EltTy.bits .f32 = 32 ∨ (Rect.block (s := S4096x32) S32x32.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S32x512.size a ≤ S4096x512.size a
  hwx0_15 : ∀ i : grid0.Coords, EltTy.bits .f32 = 32 ∨ (Rect.block (s := S4096x512) S32x512.size (cc0_transform_15 i) (hinb0_15 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def scatter_S131072_S131072x1_S131072_n_0_0_1 : ScatterDims S131072 S131072x1 S131072 where
  updateWindowDims := []
  insertedWindowDims := [0]
  scatterDimsToOperandDims := [0]
  indexVectorDim := 1
  wf := scatter_S131072_S131072x1_S131072_n_0_0_1_wf

abbrev win0_0 : Pipeline.Window sig grid0 :=
  Pipeline.Window.ofSpec (Memref.whole main_arg0) S32x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v2_0) S32x32.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v2_1) S32x32.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v2_2) S32x512.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S4096x32x512 : Shape := ⟨3, ![4096, 32, 512]⟩
abbrev S4096x32 : Shape := ⟨2, ![4096, 32]⟩
abbrev S4096 : Shape := ⟨1, ![4096]⟩
abbrev S4096x512 : Shape := ⟨2, ![4096, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S4096x1 : Shape := ⟨2, ![4096, 1]⟩
abbrev S4096x32x1 : Shape := ⟨3, ![4096, 32, 1]⟩
abbrev S1x1x512 : Shape := ⟨3, ![1, 1, 512]⟩
abbrev S4096x1x512 : Shape := ⟨3, ![4096, 1, 512]⟩
abbrev S4096x32x1024 : Shape := ⟨3, ![4096, 32, 1024]⟩
abbrev S_ : Shape := ⟨0, ![]⟩
abbrev S1x1x1 : Shape := ⟨3, ![1, 1, 1]⟩
abbrev S131072 : Shape := ⟨1, ![131072]⟩
abbrev S131072x1 : Shape := ⟨2, ![131072, 1]⟩

abbrev nBuf : Space → Nat
  | .hbm => 145
  | .vmem => 0
  | .smem => 0
  | _ => 0

abbrev hbmTy0_0 (i : Nat) : BufTy := match i % 128 with
  | 0 => ⟨S4096x32x512, .f32⟩
  | 1 => ⟨S4096x32, .f32⟩
  | 2 => ⟨S4096, .f32⟩
  | 3 => ⟨S4096x512, .f32⟩
  | 4 => ⟨S4096x32, .f32⟩
  | 5 => ⟨S512, .f32⟩
  | 6 => ⟨S512, .f32⟩
  | 7 => ⟨S1024x512, .f32⟩
  | 8 => ⟨S512, .f32⟩
  | 9 => ⟨S512, .f32⟩
  | 10 => ⟨S512, .f32⟩
  | 11 => ⟨S512x1, .f32⟩
  | 12 => ⟨S1, .f32⟩
  | 13 => ⟨S4096x32, .i32⟩
  | 14 => ⟨S4096x1, .f32⟩
  | 15 => ⟨S4096x32, .f32⟩
  | 16 => ⟨S4096x32, .f32⟩
  | 17 => ⟨S4096x32x1, .f32⟩
  | 18 => ⟨S1x1x512, .f32⟩
  | 19 => ⟨S4096x32x512, .f32⟩
  | 20 => ⟨S4096x32x512, .f32⟩
  | 21 => ⟨S4096x32x512, .f32⟩
  | 22 => ⟨S1x1x512, .f32⟩
  | 23 => ⟨S4096x32x512, .f32⟩
  | 24 => ⟨S4096x32x512, .f32⟩
  | 25 => ⟨S4096x32x512, .f32⟩
  | 26 => ⟨S4096x32x512, .f32⟩
  | 27 => ⟨S4096x1x512, .f32⟩
  | 28 => ⟨S4096x32x512, .f32⟩
  | 29 => ⟨S4096x32x1024, .f32⟩
  | 30 => ⟨S4096x32x512, .f32⟩
  | 31 => ⟨S1x1x512, .f32⟩
  | 32 => ⟨S4096x32x512, .f32⟩
  | 33 => ⟨S4096x32x512, .f32⟩
  | 34 => ⟨S_, .f32⟩
  | 35 => ⟨S4096x32, .f32⟩
  | 36 => ⟨S4096x32x1, .f32⟩
  | 37 => ⟨S_, .f32⟩
  | 38 => ⟨S4096x32x1, .f32⟩
  | 39 => ⟨S4096x32x1, .f32⟩
  | 40 => ⟨S4096x32x512, .f32⟩
  | 41 => ⟨S4096x32x512, .f32⟩
  | 42 => ⟨S4096x32x512, .f32⟩
  | 43 => ⟨S_, .f32⟩
  | 44 => ⟨S4096x32, .f32⟩
  | 45 => ⟨S4096x32x1, .f32⟩
  | 46 => ⟨S_, .f32⟩
  | 47 => ⟨S4096x32x1, .f32⟩
  | 48 => ⟨S4096x32x1, .f32⟩
  | 49 => ⟨S4096x32x512, .f32⟩
  | 50 => ⟨S4096x32x512, .f32⟩
  | 51 => ⟨S_, .f32⟩
  | 52 => ⟨S4096x32x1, .f32⟩
  | 53 => ⟨S4096x32x1, .f32⟩
  | 54 => ⟨S4096x32x1, .f32⟩
  | 55 => ⟨S4096x32x512, .f32⟩
  | 56 => ⟨S4096x32x512, .f32⟩
  | 57 => ⟨S1x1x512, .f32⟩
  | 58 => ⟨S4096x32x512, .f32⟩
  | 59 => ⟨S4096x32x512, .f32⟩
  | 60 => ⟨S1x1x512, .f32⟩
  | 61 => ⟨S4096x32x512, .f32⟩
  | 62 => ⟨S4096x32x512, .f32⟩
  | 63 => ⟨S4096x32x1, .f32⟩
  | 64 => ⟨S1x1x1, .f32⟩
  | 65 => ⟨S4096x32x1, .f32⟩
  | 66 => ⟨S4096x32x1, .f32⟩
  | 67 => ⟨S4096x32, .f32⟩
  | 68 => ⟨S_, .f32⟩
  | 69 => ⟨S4096x512, .f32⟩
  | 70 => ⟨S_, .f32⟩
  | 71 => ⟨S4096x512, .f32⟩
  | 72 => ⟨S4096x512, .f32⟩
  | 73 => ⟨S_, .f32⟩
  | 74 => ⟨S4096x32, .f32⟩
  | 75 => ⟨S4096x32, .f32⟩
  | 76 => ⟨S4096x32, .f32⟩
  | 77 => ⟨S4096x32, .f32⟩
  | 78 => ⟨S4096x32, .f32⟩
  | 79 => ⟨S4096x32, .f32⟩
  | 80 => ⟨S4096x32, .f32⟩
  | 81 => ⟨S_, .f32⟩
  | 82 => ⟨S4096x32, .f32⟩
  | 83 => ⟨S4096x32, .f32⟩
  | 84 => ⟨S4096x32, .f32⟩
  | 85 => ⟨S4096x32, .f32⟩
  | 86 => ⟨S_, .f32⟩
  | 87 => ⟨S4096x32, .f32⟩
  | 88 => ⟨S4096x32, .f32⟩
  | 89 => ⟨S_, .f32⟩
  | 90 => ⟨S4096x32, .f32⟩
  | 91 => ⟨S4096x32, .f32⟩
  | 92 => ⟨S_, .f32⟩
  | 93 => ⟨S4096x32, .f32⟩
  | 94 => ⟨S4096x32, .f32⟩
  | 95 => ⟨S4096x32, .f32⟩
  | 96 => ⟨S4096x32, .f32⟩
  | 97 => ⟨S_, .f32⟩
  | 98 => ⟨S4096x32, .f32⟩
  | 99 => ⟨S4096x32, .f32⟩
  | 100 => ⟨S_, .f32⟩
  | 101 => ⟨S4096x32, .f32⟩
  | 102 => ⟨S4096x32, .f32⟩
  | 103 => ⟨S_, .f32⟩
  | 104 => ⟨S_, .f32⟩
  | 105 => ⟨S_, .f32⟩
  | 106 => ⟨S_, .f32⟩
  | 107 => ⟨S_, .f32⟩
  | 108 => ⟨S4096x32, .f32⟩
  | 109 => ⟨S4096x32, .f32⟩
  | 110 => ⟨S_, .f32⟩
  | 111 => ⟨S4096x32, .f32⟩
  | 112 => ⟨S4096x32, .f32⟩
  | 113 => ⟨S_, .f32⟩
  | 114 => ⟨S_, .f32⟩
  | 115 => ⟨S_, .f32⟩
  | 116 => ⟨S4096x32, .f32⟩
  | 117 => ⟨S4096x32, .f32⟩
  | 118 => ⟨S_, .f32⟩
  | 119 => ⟨S4096x32, .f32⟩
  | 120 => ⟨S4096x32, .f32⟩
  | 121 => ⟨S_, .f32⟩
  | 122 => ⟨S4096x32, .f32⟩
  | 123 => ⟨S4096x32, .i1⟩
  | 124 => ⟨S4096x32, .f32⟩
  | 125 => ⟨S4096x32, .f32⟩
  | 126 => ⟨S4096x32, .f32⟩
  | 127 => ⟨S_, .f32⟩
  | _ => ⟨S4096x32x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S131072, .f32⟩
  | 5 => ⟨S131072, .i32⟩
  | 6 => ⟨S131072, .f32⟩
  | 7 => ⟨S_, .i32⟩
  | 8 => ⟨S131072, .i32⟩
  | 9 => ⟨S131072, .i1⟩
  | 10 => ⟨S_, .i32⟩
  | 11 => ⟨S131072, .i32⟩
  | 12 => ⟨S131072, .i32⟩
  | 13 => ⟨S131072, .i32⟩
  | 14 => ⟨S131072x1, .i32⟩
  | 15 => ⟨S131072, .f32⟩
  | 16 => ⟨S_, .f32⟩
  | _ => ⟨S4096x32x512, .f32⟩

abbrev hbmTy (i : Nat) : BufTy := match i / 128 with
  | 0 => hbmTy0_0 i
  | 1 => hbmTy0_1 i
  | _ => ⟨S4096x32x512, .f32⟩

abbrev bufTy : (tb : Table) → Fin (tcTables nBuf tb) → BufTy
  | .hbm, ⟨i, _⟩ => hbmTy i
  | _, _ => ⟨S4096x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_4 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_7 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_8 : Ref sig .tc := ⟨.hbm, 86, rfl⟩
abbrev main_v63 : Ref sig .tc := ⟨.hbm, 87, rfl⟩
abbrev main_v64 : Ref sig .tc := ⟨.hbm, 88, rfl⟩
abbrev main_cst_9 : Ref sig .tc := ⟨.hbm, 89, rfl⟩
abbrev main_v65 : Ref sig .tc := ⟨.hbm, 90, rfl⟩
abbrev main_v66 : Ref sig .tc := ⟨.hbm, 91, rfl⟩
abbrev main_cst_10 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_cst_17 : Ref sig .tc := ⟨.hbm, 113, rfl⟩
abbrev main_cst_18 : Ref sig .tc := ⟨.hbm, 114, rfl⟩
abbrev main_call0_v0 : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_v81 : Ref sig .tc := ⟨.hbm, 120, rfl⟩
abbrev main_cst_19 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_20 : Ref sig .tc := ⟨.hbm, 127, rfl⟩
abbrev main_v87 : Ref sig .tc := ⟨.hbm, 128, rfl⟩
abbrev main_cst_21 : Ref sig .tc := ⟨.hbm, 129, rfl⟩
abbrev main_v88 : Ref sig .tc := ⟨.hbm, 130, rfl⟩
abbrev main_cst_22 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c : Ref sig .tc := ⟨.hbm, 135, rfl⟩
abbrev main_v92 : Ref sig .tc := ⟨.hbm, 136, rfl⟩
abbrev main_v93 : Ref sig .tc := ⟨.hbm, 137, rfl⟩
abbrev main_c_23 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_24 : Ref sig .tc := ⟨.hbm, 144, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x32_0_1 : S4096x1.BroadcastsInDim S4096x32 (![0, 1] : Fin 2 → Fin S4096x32.rank)
  bcast_S4096x32_S4096x32x1_0_1 : S4096x32.BroadcastsInDim S4096x32x1 (![0, 1] : Fin 2 → Fin S4096x32x1.rank)
  bcast_S512_S1x1x512_2 : S512.BroadcastsInDim S1x1x512 (![2] : Fin 1 → Fin S1x1x512.rank)
  bcast_S4096x32x1_S4096x32x512_0_1_2 : S4096x32x1.BroadcastsInDim S4096x32x512 (![0, 1, 2] : Fin 3 → Fin S4096x32x512.rank)
  bcast_S1x1x512_S4096x32x512_0_1_2 : S1x1x512.BroadcastsInDim S4096x32x512 (![0, 1, 2] : Fin 3 → Fin S4096x32x512.rank)
  bcast_S4096x512_S4096x1x512_0_2 : S4096x512.BroadcastsInDim S4096x1x512 (![0, 2] : Fin 2 → Fin S4096x1x512.rank)
  bcast_S4096x1x512_S4096x32x512_0_1_2 : S4096x1x512.BroadcastsInDim S4096x32x512 (![0, 1, 2] : Fin 3 → Fin S4096x32x512.rank)
  concatenates_S4096x32x512_S4096x32x512_S4096x32x1024_d2 : Shape.Concatenates [S4096x32x512, S4096x32x512] S4096x32x1024 2
  reducesTo_S4096x32x512_S4096x32_d2 : S4096x32x512.ReducesTo [2] S4096x32
  h_S_ : 0 < S_.numel
  bcast_S_S4096x32x1 : S_.BroadcastsInDim S4096x32x1 (![] : Fin 0 → Fin S4096x32x1.rank)
  bcast_S1_S1x1x1_2 : S1.BroadcastsInDim S1x1x1 (![2] : Fin 1 → Fin S1x1x1.rank)
  bcast_S1x1x1_S4096x32x1_0_1_2 : S1x1x1.BroadcastsInDim S4096x32x1 (![0, 1, 2] : Fin 3 → Fin S4096x32x1.rank)
  shapeCasts_S4096x32x1_S4096x32 : S4096x32x1.ShapeCasts S4096x32
  reducesTo_S4096x32x512_S4096x512_d1 : S4096x32x512.ReducesTo [1] S4096x512
  bcast_S_S4096x512 : S_.BroadcastsInDim S4096x512 (![] : Fin 0 → Fin S4096x512.rank)
  bcast_S_S4096x32 : S_.BroadcastsInDim S4096x32 (![] : Fin 0 → Fin S4096x32.rank)
  reducesTo_S4096x32_S_d0_1 : S4096x32.ReducesTo [0, 1] S_
  bcast_S_S131072 : S_.BroadcastsInDim S131072 (![] : Fin 0 → Fin S131072.rank)
  shapeCasts_S4096x32_S131072 : S4096x32.ShapeCasts S131072
  bcast_S131072_S131072x1_0 : S131072.BroadcastsInDim S131072x1 (![0] : Fin 1 → Fin S131072x1.rank)
  dot_S4096x32x1024_S1024x512_S4096x32x512_2_0_01_1_n_n_wf : DotDims.WF S4096x32x1024 S1024x512 S4096x32x512 [2] [0] [0, 1] [1] [] []
  dot_S4096x32x512_S512x1_S4096x32x1_2_0_01_1_n_n_wf : DotDims.WF S4096x32x512 S512x1 S4096x32x1 [2] [0] [0, 1] [1] [] []
  scatter_S131072_S131072x1_S131072_n_0_0_1_wf : ScatterDims.WF S131072 S131072x1 S131072 [] [0] [0] 1

variable [Facts₀]

def dot_S4096x32x1024_S1024x512_S4096x32x512_2_0_01_1_n_n : DotDims S4096x32x1024 S1024x512 S4096x32x512 where
  lhsContracting := [2]
  rhsContracting := [0]
  lhsNonContracting := [0, 1]
  rhsNonContracting := [1]
  lhsBatch := []
  rhsBatch := []
  wf := dot_S4096x32x1024_S1024x512_S4096x32x512_2_0_01_1_n_n_wf
def dot_S4096x32x512_S512x1_S4096x32x1_2_0_01_1_n_n : DotDims S4096x32x512 S512x1 S4096x32x1 where
  lhsContracting := [2]
  rhsContracting := [0]
  lhsNonContracting := [0, 1]
  rhsNonContracting := [1]
  lhsBatch := []
  rhsBatch := []
  wf := dot_S4096x32x512_S512x1_S4096x32x1_2_0_01_1_n_n_wf
def scatter_S131072_S131072x1_S131072_n_0_0_1 : ScatterDims S131072 S131072x1 S131072 where
  updateWindowDims := []
  insertedWindowDims := [0]
  scatterDimsToOperandDims := [0]
  indexVectorDim := 1
  wf := scatter_S131072_S131072x1_S131072_n_0_0_1_wf

class Facts : Prop extends Facts₀ where

variable [Facts]
-- ==== Proof.Spec.lean ====
/-
  What both programs compute, over the extended reals, one output entry at a time.

  For node `n`, neighbour `l` and channel `j` the message-passing layer forms
    fm (n, l, j) = ∑ k<512, (feat (n,l,k) + cos (dt (n,l) · basis k + phase k)) · W0 (k, j)
                   + (∑ k<512, memory (n,k) · W0 (512 + k, j) + b0 j),        dt (n,l) = ts (n,l) − last_update n,
  the product of the concatenated message `[feat + t_code | memory]` with `W0`, written as the two half sums (`fmEntry`;
  `sum_concat_split` is the step from one sum over 1024 terms, with the bias outside, to this grouping: only the
  associativity of addition on the extended reals is used). From a row `r = fm (n, l, ·)`:
    gate (n,l)    = ∑ j, (((r j − μ) · rsqrt (σ² + ε)) · g j + b j) · w j + b1,   μ = (∑ r) / 512,  σ² = (∑ (r − μ)²) / 512   (`gateRow`),
    s (n,l)       = min 1 (max 0 (logistic ((log u − log1p (0 − u) + (gate + 3)) / β) · 1.2 + (−0.2)))                      (`sOf`),
    hard (n,l)    = 1 if s > 1/2 else 0                                                                                    (`hardOf`),
    mem_out (n,j) = (∑ l<32, fm (n,l,j)) / 32                                                                              (`colMean`).
  The reference returns the straight-through value `s + (hard − s)`; since `0 ≤ s ≤ 1` it is a real number and the sum
  is `hard` (`ste_eq`). Every float literal is kept as the word both programs print.
-/
import Idealize.ShloMosaic.PureOps.Ideal.Laws
import Idealize.ShloMosaic.Lib.ValueIdx

noncomputable section

open scoped BigOperators
open Idealize.ShloMosaic Idealize.ShloMosaic.ValueIdx

namespace Cert.Spec

/-! ## The literals, as the words the programs print -/

abbrev w0 : EReal := Ideal.ofBits .f32 0x00000000#32      -- 0.0
abbrev w1 : EReal := Ideal.ofBits .f32 0x3F800000#32      -- 1.0
abbrev wHalf : EReal := Ideal.ofBits .f32 0x3F000000#32   -- 0.5
abbrev w3 : EReal := Ideal.ofBits .f32 0x40400000#32      -- 3.0
abbrev w32 : EReal := Ideal.ofBits .f32 0x42000000#32     -- 32.0
abbrev w512 : EReal := Ideal.ofBits .f32 0x44000000#32    -- 512.0
abbrev wEps : EReal := Ideal.ofBits .f32 0x3727C5AC#32    -- the layer norm's ε
abbrev wBeta : EReal := Ideal.ofBits .f32 0x3EAAAAAB#32   -- β
abbrev wScale : EReal := Ideal.ofBits .f32 0x3F99999A#32  -- ζ − γ
abbrev wShift : EReal := Ideal.ofBits .f32 0xBE4CCCCD#32  -- γ

theorem w0_eq : w0 = 0 := Ideal.ofBits_zero_f32
theorem w1_eq : w1 = 1 := IdealRules.sign_bit.ideal_onePat .f32

/-! ## One entry of the layer's product -/

/-- `fm (n, l, j)` from row `(n, l)` of the edge features (`fr`), the time gap `dt`, row `n` of the memory (`mr`), the
    time encoder's frequencies and phases, column `j` of the two halves of `W0` (`Wt`, `Wb`) and `b0 j`. -/
def fmEntry (fr mr bas ph Wt Wb : Fin 512 → EReal) (dt b0 : EReal) : EReal :=
  (∑ k : Fin 512, (fr k + Ideal.cos (dt * bas k + ph k)) * Wt k) + ((∑ k : Fin 512, mr k * Wb k) + b0)

/-- A sum over `1024 = 512 + 512` terms is the sum of its two halves. -/
theorem sum_1024_split (f : Fin 1024 → EReal) :
    ∑ k : Fin 1024, f k
      = (∑ k : Fin 512, f ⟨k.val, by omega⟩) + ∑ k : Fin 512, f ⟨512 + k.val, by omega⟩ := by
  have h := Fin.sum_univ_add (a := 512) (b := 512) (f : Fin (512 + 512) → EReal)
  refine h.trans ?_
  congr 1

/-- The product of a concatenated row with a matrix column, the bias added last, regrouped: the first half's sum plus
    (the second half's sum plus the bias). -/
theorem sum_concat_split (cat W : Fin 1024 → EReal) (a m : Fin 512 → EReal) (b : EReal)
    (hl : ∀ k : Fin 512, cat ⟨k.val, by omega⟩ = a k) (hr : ∀ k : Fin 512, cat ⟨512 + k.val, by omega⟩ = m k) :
    (∑ k : Fin 1024, cat k * W k) + b
      = (∑ k : Fin 512, a k * W ⟨k.val, by omega⟩) + ((∑ k : Fin 512, m k * W ⟨512 + k.val, by omega⟩) + b) := by
  rw [sum_1024_split, add_assoc]
  simp only [hl, hr]

/-! ## The gate of one row -/

/-- The layer norm of the row `r` with gain `g` and bias `b`, contracted with `w`, plus `b1`. -/
def gateRow (r g b w : Fin 512 → EReal) (b1 : EReal) : EReal :=
  (∑ j : Fin 512,
      (((r j - Ideal.div (∑ i : Fin 512, r i) w512)
          * Ideal.rsqrt (Ideal.div (∑ i : Fin 512, (r i - Ideal.div (∑ i : Fin 512, r i) w512)
              * (r i - Ideal.div (∑ i : Fin 512, r i) w512)) w512 + wEps)) * g j + b j) * w j) + b1

/-! ## The hard-concrete gate -/

/-- The stretched and clipped sigmoid `s` of a gate value and a uniform sample `u`. -/
def sOf (gate u : EReal) : EReal :=
  min w1 (max w0 (Ideal.logistic (Ideal.div ((Ideal.log u - Ideal.log1p (w0 - u)) + (gate + w3)) wBeta) * wScale + wShift))

/-- Its threshold at one half, as `0` or `1`. -/
def hardOf (gate u : EReal) : EReal := (((Ideal.cmp .ogt (sOf gate u) wHalf).toNat : ℝ) : EReal)

theorem sOf_nonneg (gate u : EReal) : 0 ≤ sOf gate u := by
  unfold sOf
  rw [w0_eq, w1_eq]
  exact le_min zero_le_one (le_max_left _ _)

theorem sOf_le_one (gate u : EReal) : sOf gate u ≤ 1 := by
  unfold sOf
  rw [w1_eq]
  exact min_le_left _ _

/-- The straight-through value `s + (hard − s)` is `hard`: `s` lies in `[0, 1]`, so it is a real number. -/
theorem ste_eq (gate u : EReal) : sOf gate u + (hardOf gate u - sOf gate u) = hardOf gate u := by
  have h0 := sOf_nonneg gate u
  have h1 := sOf_le_one gate u
  have hb : sOf gate u ≠ ⊥ := fun h => by rw [h] at h0; exact absurd h0 (by simp)
  have ht : sOf gate u ≠ ⊤ :=
    ne_top_of_le_ne_top (by rw [← EReal.coe_one]; exact EReal.coe_ne_top 1) h1
  unfold hardOf
  generalize sOf gate u = s at hb ht
  lift s to ℝ using ⟨ht, hb⟩
  generalize ((Ideal.cmp .ogt (s : EReal) wHalf).toNat : ℝ) = y
  rw [← EReal.coe_sub, ← EReal.coe_add]
  congr 1
  ring

/-! ## The mean over the neighbours -/

/-- The mean of 32 values: their sum over `32`. -/
def colMean (col : Fin 32 → EReal) : EReal := Ideal.div (∑ l : Fin 32, col l) w32

/-! ## The inputs, and the three arrays the kernel region leaves -/

/-- The thirteen float inputs at the ideal values. -/
structure Inp where
  feat : (⟨3, ![4096, 32, 512]⟩ : Shape).Idx → EReal
  ts : (⟨2, ![4096, 32]⟩ : Shape).Idx → EReal
  lu : (⟨1, ![4096]⟩ : Shape).Idx → EReal
  mem : (⟨2, ![4096, 512]⟩ : Shape).Idx → EReal
  u : (⟨2, ![4096, 32]⟩ : Shape).Idx → EReal
  basis : (⟨1, ![512]⟩ : Shape).Idx → EReal
  phase : (⟨1, ![512]⟩ : Shape).Idx → EReal
  W0 : (⟨2, ![1024, 512]⟩ : Shape).Idx → EReal
  b0 : (⟨1, ![512]⟩ : Shape).Idx → EReal
  g : (⟨1, ![512]⟩ : Shape).Idx → EReal
  b : (⟨1, ![512]⟩ : Shape).Idx → EReal
  W1 : (⟨2, ![512, 1]⟩ : Shape).Idx → EReal
  b1 : (⟨1, ![1]⟩ : Shape).Idx → EReal

namespace Inp

variable (A : Inp)

/-- `fm (n, l, j)`. -/
def fm (n : Fin 4096) (l : Fin 32) (j : Fin 512) : EReal :=
  fmEntry (fun k => A.feat (ix3 n l k)) (fun k => A.mem (ix2 n k)) (fun k => A.basis (ix1 k)) (fun k => A.phase (ix1 k))
    (fun k => A.W0 (ix2 (⟨k.val, by omega⟩ : Fin 1024) j)) (fun k => A.W0 (ix2 (⟨512 + k.val, by omega⟩ : Fin 1024) j))
    (A.ts (ix2 n l) - A.lu (ix1 n)) (A.b0 (ix1 j))

/-- `gate (n, l)`. -/
def gate (n : Fin 4096) (l : Fin 32) : EReal :=
  gateRow (A.fm n l) (fun j => A.g (ix1 j)) (fun j => A.b (ix1 j)) (fun j => A.W1 (ix2 j (0 : Fin 1))) (A.b1 (ix1 (0 : Fin 1)))

/-- `hard (n, l)`. -/
def hard (n : Fin 4096) (l : Fin 32) : EReal := hardOf (A.gate n l) (A.u (ix2 n l))

/-- `mem_out (n, j)`. -/
def memOut (n : Fin 4096) (j : Fin 512) : EReal := colMean fun l => A.fm n l j

/-- The gate array. -/
def gateArr : (⟨2, ![4096, 32]⟩ : Shape).Idx → EReal := fun i => A.gate ⟨(i 0).val, idx2_lt0 i⟩ ⟨(i 1).val, idx2_lt1 i⟩
/-- The hard-gate array. -/
def hardArr : (⟨2, ![4096, 32]⟩ : Shape).Idx → EReal := fun i => A.hard ⟨(i 0).val, idx2_lt0 i⟩ ⟨(i 1).val, idx2_lt1 i⟩
/-- The new-memory array. -/
def memArr : (⟨2, ![4096, 512]⟩ : Shape).Idx → EReal := fun i => A.memOut ⟨(i 0).val, idx2_lt0 i⟩ ⟨(i 1).val, idx2_lt1 i⟩

theorem gateArr_ix2 (n : Fin 4096) (l : Fin 32) : A.gateArr (ix2 n l) = A.gate n l := rfl
theorem hardArr_ix2 (n : Fin 4096) (l : Fin 32) : A.hardArr (ix2 n l) = A.hard n l := rfl
theorem memArr_ix2 (n : Fin 4096) (j : Fin 512) : A.memArr (ix2 n j) = A.memOut n j := rfl

end Inp

end Cert.Spec

end
-- ==== Proof.RefValue.lean ====
/-
  The reference's three intermediate arrays at the ideal values are the arrays of the specification:
  the gate `%48`, the straight-through gate value `%86` and the new memory `%51`, each read one operation at a time
  down to the arguments and compared entry by entry.
-/
import proofs.«162773_j29892972380504_1_alg».proof.Proof.Gen.ReferenceIdeal.Read
import proofs.«162773_j29892972380504_1_alg».proof.Proof.Spec

noncomputable section

open scoped BigOperators
open Idealize.ShloMosaic Idealize.ShloMosaic.ValueIdx

namespace Cert.RefValue

open Cert.ReferenceIdeal Cert.ReferenceIdeal.Read Cert.Spec

/-- The reference's arguments as the specification's inputs. -/
def inp (x0 : (⟨S4096x32x512, .f32⟩ : BufTy).Contents (Elt Ideal)) (x1 : (⟨S4096x32, .f32⟩ : BufTy).Contents (Elt Ideal)) (x2 : (⟨S4096, .f32⟩ : BufTy).Contents (Elt Ideal)) (x3 : (⟨S4096x512, .f32⟩ : BufTy).Contents (Elt Ideal)) (x4 : (⟨S4096x32, .f32⟩ : BufTy).Contents (Elt Ideal)) (x5 x6 : (⟨S512, .f32⟩ : BufTy).Contents (Elt Ideal)) (x7 : (⟨S1024x512, .f32⟩ : BufTy).Contents (Elt Ideal)) (x8 x9 x10 : (⟨S512, .f32⟩ : BufTy).Contents (Elt Ideal)) (x11 : (⟨S512x1, .f32⟩ : BufTy).Contents (Elt Ideal)) (x12 : (⟨S1, .f32⟩ : BufTy).Contents (Elt Ideal)) : Cert.Spec.Inp :=
  ⟨x0, x1, x2, x3, x4, x5, x6, x7, x8, x9, x10, x11, x12⟩

variable (x0 : (⟨S4096x32x512, .f32⟩ : BufTy).Contents (Elt Ideal)) (x1 : (⟨S4096x32, .f32⟩ : BufTy).Contents (Elt Ideal)) (x2 : (⟨S4096, .f32⟩ : BufTy).Contents (Elt Ideal)) (x3 : (⟨S4096x512, .f32⟩ : BufTy).Contents (Elt Ideal)) (x4 : (⟨S4096x32, .f32⟩ : BufTy).Contents (Elt Ideal)) (x5 x6 : (⟨S512, .f32⟩ : BufTy).Contents (Elt Ideal)) (x7 : (⟨S1024x512, .f32⟩ : BufTy).Contents (Elt Ideal)) (x8 x9 x10 : (⟨S512, .f32⟩ : BufTy).Contents (Elt Ideal)) (x11 : (⟨S512x1, .f32⟩ : BufTy).Contents (Elt Ideal)) (x12 : (⟨S1, .f32⟩ : BufTy).Contents (Elt Ideal))

/-! ## The layer's product `%19` at an index -/

/-- The first half of the concatenated row is the edge feature plus the time code. -/
theorem cat_left (n : Fin 4096) (l : Fin 32) (j : Fin 512) (k : Fin 512) :
    val_main_v15 (F := Ideal) x0 x1 x2 x3 x5 x6 (lidx_main_v16 (ix3 n l j) ⟨k.val, by omega⟩)
      = x0 (ix3 n l k) + Ideal.cos ((x1 (ix2 n l) - x2 (ix1 n)) * x5 (ix1 k) + x6 (ix1 k)) := by
  unfold val_main_v15
  have h := concatenate_pair_apply_left (t := S4096x32x1024) (s₁ := S4096x32x512) (s₂ := S4096x32x512) (2 : Fin 3)
    (val_main_v12 (F := Ideal) x0 x1 x2 x5 x6) (val_main_v14 (F := Ideal) x3)
    Gen.concatenates_S4096x32x512_S4096x32x512_S4096x32x1024_d2
    (lidx_main_v16 (ix3 n l j) ⟨k.val, by omega⟩) rfl (ix3 n l k)
    (fun b => by match b with | ⟨0, _⟩ => rfl | ⟨1, _⟩ => rfl | ⟨2, _⟩ => rfl)
  refine h.trans ?_
  rw [val_main_v12_apply, val_main_v11_apply, val_main_v10_apply, val_main_v7_apply, val_main_v5_apply, val_main_v3_apply,
    val_main_v2_apply, val_main_v1_apply, val_main_v0_apply, val_main_v6_apply, val_main_v4_apply, val_main_v9_apply, val_main_v8_apply]
  have e1 : idx_main_v3 (idx_main_v5 (ix3 n l k)) = ix2 n l :=
    funext fun a => Fin.ext (by match a with | ⟨0, _⟩ => rfl | ⟨1, _⟩ => rfl)
  have e2 : idx_main_v0 (idx_main_v1 (ix2 n l)) = ix1 n :=
    funext fun a => Fin.ext (by match a with | ⟨0, _⟩ => rfl)
  have e3 : idx_main_v4 (idx_main_v6 (ix3 n l k)) = ix1 k :=
    funext fun a => Fin.ext (by match a with | ⟨0, _⟩ => rfl)
  have e4 : idx_main_v8 (idx_main_v9 (ix3 n l k)) = ix1 k :=
    funext fun a => Fin.ext (by match a with | ⟨0, _⟩ => rfl)
  rw [e1, e2, e3, e4]
  rfl

/-- The second half of the concatenated row is the node's memory row. -/
theorem cat_right (n : Fin 4096) (l : Fin 32) (j : Fin 512) (k : Fin 512) :
    val_main_v15 (F := Ideal) x0 x1 x2 x3 x5 x6 (lidx_main_v16 (ix3 n l j) ⟨512 + k.val, by omega⟩)
      = x3 (ix2 n k) := by
  unfold val_main_v15
  have h := concatenate_pair_apply_right (t := S4096x32x1024) (s₁ := S4096x32x512) (s₂ := S4096x32x512) (2 : Fin 3)
    (val_main_v12 (F := Ideal) x0 x1 x2 x5 x6) (val_main_v14 (F := Ideal) x3)
    Gen.concatenates_S4096x32x512_S4096x32x512_S4096x32x1024_d2
    (lidx_main_v16 (ix3 n l j) ⟨512 + k.val, by omega⟩) rfl rfl (ix3 n l k)
    (fun b hb => by
      match b with
      | ⟨0, _⟩ => rfl
      | ⟨1, _⟩ => rfl
      | ⟨2, _⟩ => exact absurd rfl hb)
    (by show k.val + 512 = 512 + k.val; omega)
  refine h.trans ?_
  rw [val_main_v14_apply, val_main_v13_apply]
  have e1 : idx_main_v13 (idx_main_v14 (ix3 n l k)) = ix2 n k :=
    funext fun a => Fin.ext (by match a with | ⟨0, _⟩ => rfl | ⟨1, _⟩ => rfl)
  rw [e1]

/-- `%19` at `(n, l, j)` is the specification's `fm n l j`: the sum over the 1024 concatenated terms, the bias outside,
    regrouped into the two half sums. -/
theorem fm_apply (n : Fin 4096) (l : Fin 32) (j : Fin 512) :
    val_main_v19 (F := Ideal) x0 x1 x2 x3 x5 x6 x7 x8 (ix3 n l j)
      = (inp x0 x1 x2 x3 x4 x5 x6 x7 x8 x9 x10 x11 x12).fm n l j := by
  rw [val_main_v19_apply, val_main_v16_apply, val_main_v18_apply, val_main_v17_apply]
  have eb : idx_main_v17 (idx_main_v18 (ix3 n l j)) = ix1 j :=
    funext fun a => Fin.ext (by match a with | ⟨0, _⟩ => rfl)
  have er : ∀ kk : Fin 1024, ridx_main_v16 (ix3 n l j) kk = ix2 kk j := fun kk =>
    funext fun a => Fin.ext (by match a with | ⟨0, _⟩ => rfl | ⟨1, _⟩ => rfl)
  rw [eb]
  refine (sum_concat_split (fun kk => val_main_v15 (F := Ideal) x0 x1 x2 x3 x5 x6 (lidx_main_v16 (ix3 n l j) kk))
    (fun kk => x7 (ridx_main_v16 (ix3 n l j) kk))
    (fun k => x0 (ix3 n l k) + Ideal.cos ((x1 (ix2 n l) - x2 (ix1 n)) * x5 (ix1 k) + x6 (ix1 k)))
    (fun k => x3 (ix2 n k)) (x8 (ix1 j))
    (cat_left x0 x1 x2 x3 x5 x6 n l j) (cat_right x0 x1 x2 x3 x5 x6 n l j)).trans ?_
  simp only [er]
  rfl

/-! ## The new memory `%51` -/

/-- `%51` at `(n, j)` is the mean over the neighbours of `%19 (n, ·, j)`. -/
theorem mem_apply (n : Fin 4096) (j : Fin 512) (c : Fin 32 → EReal)
    (hc : ∀ l : Fin 32, val_main_v19 (F := Ideal) x0 x1 x2 x3 x5 x6 x7 x8 (ix3 n l j) = c l) :
    val_main_v51 (F := Ideal) x0 x1 x2 x3 x5 x6 x7 x8 (ix2 n j) = colMean c := by
  rw [val_main_v51_apply, val_main_v49_apply, val_main_v50_apply, val_main_cst_5_apply, val_main_cst_4_apply]
  have e : ∀ k : Fin 32, idx_main_v49 (ix2 n j) k = ix3 n k j := fun k =>
    funext fun a => Fin.ext (by match a with | ⟨0, _⟩ => rfl | ⟨1, _⟩ => rfl | ⟨2, _⟩ => rfl)
  simp only [e, hc]
  unfold colMean
  simp only [Ideal.hostDivf_def, Ideal.ofBits_def, Ideal.ofBits_zero_f32, zero_add]

/-! ## The gate `%48`: the layer norm of a row of `%19`, contracted with `W1` -/

section Row

variable (n : Fin 4096) (l : Fin 32) (r : Fin 512 → EReal)
  (hr : ∀ j : Fin 512, val_main_v19 (F := Ideal) x0 x1 x2 x3 x5 x6 x7 x8 (ix3 n l j) = r j)
include hr

/-- `%23`: the mean of the row. -/
theorem mean_apply (z : Fin 1) :
    val_main_v23 (F := Ideal) x0 x1 x2 x3 x5 x6 x7 x8 (ix3 n l z) = Ideal.div (∑ i : Fin 512, r i) w512 := by
  rw [val_main_v23_apply, val_main_v21_apply, val_main_v20_apply, val_main_v22_apply, val_main_cst_0_apply, val_main_cst_apply]
  have e1 : idx_main_v21 (ix3 n l z) = ix2 n l :=
    funext fun a => Fin.ext (by match a with | ⟨0, _⟩ => rfl | ⟨1, _⟩ => rfl)
  have e2 : ∀ k : Fin 512, idx_main_v20 (ix2 n l) k = ix3 n l k := fun k =>
    funext fun a => Fin.ext (by match a with | ⟨0, _⟩ => rfl | ⟨1, _⟩ => rfl | ⟨2, _⟩ => rfl)
  rw [e1]
  simp only [e2, hr]
  simp only [Ideal.hostDivf_def, Ideal.ofBits_def, Ideal.ofBits_zero_f32, zero_add]

/-- `%25`: the row less its mean (the copy that is squared). -/
theorem cent_apply (k : Fin 512) :
    val_main_v25 (F := Ideal) x0 x1 x2 x3 x5 x6 x7 x8 (ix3 n l k) = r k - Ideal.div (∑ i : Fin 512, r i) w512 := by
  rw [val_main_v25_apply, val_main_v24_apply, hr]
  have e : idx_main_v24 (ix3 n l k) = ix3 n l (0 : Fin 1) :=
    funext fun a => Fin.ext (by match a with | ⟨0, _⟩ => rfl | ⟨1, _⟩ => rfl | ⟨2, _⟩ => rfl)
  rw [e, mean_apply x0 x1 x2 x3 x5 x6 x7 x8 n l r hr]
  rfl

/-- `%32`: the row less its mean (the copy that is normalized). -/
theorem cent2_apply (k : Fin 512) :
    val_main_v32 (F := Ideal) x0 x1 x2 x3 x5 x6 x7 x8 (ix3 n l k) = r k - Ideal.div (∑ i : Fin 512, r i) w512 := by
  rw [val_main_v32_apply, val_main_v31_apply, hr]
  have e : idx_main_v31 (ix3 n l k) = ix3 n l (0 : Fin 1) :=
    funext fun a => Fin.ext (by match a with | ⟨0, _⟩ => rfl | ⟨1, _⟩ => rfl | ⟨2, _⟩ => rfl)
  rw [e, mean_apply x0 x1 x2 x3 x5 x6 x7 x8 n l r hr]
  rfl

/-- `%35`: the reciprocal square root of the row's variance plus ε. -/
theorem rstd_apply (z : Fin 1) :
    val_main_v35 (F := Ideal) x0 x1 x2 x3 x5 x6 x7 x8 (ix3 n l z)
      = Ideal.rsqrt (Ideal.div (∑ i : Fin 512, (r i - Ideal.div (∑ i : Fin 512, r i) w512)
          * (r i - Ideal.div (∑ i : Fin 512, r i) w512)) w512 + wEps) := by
  rw [val_main_v35_apply, val_main_v34_apply, val_main_v30_apply, val_main_v28_apply, val_main_v27_apply, val_main_v29_apply,
    val_main_cst_2_apply, val_main_v33_apply, val_main_cst_3_apply, val_main_cst_1_apply]
  have e1 : idx_main_v28 (ix3 n l z) = ix2 n l :=
    funext fun a => Fin.ext (by match a with | ⟨0, _⟩ => rfl | ⟨1, _⟩ => rfl)
  have e2 : ∀ k : Fin 512, idx_main_v27 (ix2 n l) k = ix3 n l k := fun k =>
    funext fun a => Fin.ext (by match a with | ⟨0, _⟩ => rfl | ⟨1, _⟩ => rfl | ⟨2, _⟩ => rfl)
  rw [e1]
  simp only [e2, val_main_v26_apply, cent_apply x0 x1 x2 x3 x5 x6 x7 x8 n l r hr]
  simp only [Ideal.hostDivf_def, Ideal.ofBits_def, Ideal.ofBits_zero_f32, zero_add, Ideal.addf_def, Ideal.mulf_def,
    Ideal.hostUnary_rsqrt_def]

/-- `%43`: the normalized row times the gain plus the bias. -/
theorem normed_apply (k : Fin 512) :
    val_main_v43 (F := Ideal) x0 x1 x2 x3 x5 x6 x7 x8 x9 x10 (ix3 n l k)
      = ((r k - Ideal.div (∑ i : Fin 512, r i) w512)
          * Ideal.rsqrt (Ideal.div (∑ i : Fin 512, (r i - Ideal.div (∑ i : Fin 512, r i) w512)
              * (r i - Ideal.div (∑ i : Fin 512, r i) w512)) w512 + wEps)) * x9 (ix1 k) + x10 (ix1 k) := by
  rw [val_main_v43_apply, val_main_v40_apply, val_main_v37_apply, val_main_v36_apply, val_main_v39_apply, val_main_v38_apply,
    val_main_v42_apply, val_main_v41_apply, cent2_apply x0 x1 x2 x3 x5 x6 x7 x8 n l r hr]
  have e1 : idx_main_v36 (ix3 n l k) = ix3 n l (0 : Fin 1) :=
    funext fun a => Fin.ext (by match a with | ⟨0, _⟩ => rfl | ⟨1, _⟩ => rfl | ⟨2, _⟩ => rfl)
  have e2 : idx_main_v38 (idx_main_v39 (ix3 n l k)) = ix1 k :=
    funext fun a => Fin.ext (by match a with | ⟨0, _⟩ => rfl)
  have e3 : idx_main_v41 (idx_main_v42 (ix3 n l k)) = ix1 k :=
    funext fun a => Fin.ext (by match a with | ⟨0, _⟩ => rfl)
  rw [e1, e2, e3, rstd_apply x0 x1 x2 x3 x5 x6 x7 x8 n l r hr]
  rfl

/-- `%48` at `(n, l)` is the gate of the row. -/
theorem gate_apply :
    val_main_v48 (F := Ideal) x0 x1 x2 x3 x5 x6 x7 x8 x9 x10 x11 x12 (ix2 n l)
      = gateRow r (fun j => x9 (ix1 j)) (fun j => x10 (ix1 j)) (fun j => x11 (ix2 j (0 : Fin 1))) (x12 (ix1 (0 : Fin 1))) := by
  rw [val_main_v48_apply, val_main_v47_apply, val_main_v44_apply, val_main_v46_apply, val_main_v45_apply]
  have e0 : idx_main_v48 (ix2 n l) = ix3 n l (0 : Fin 1) :=
    funext fun a => Fin.ext (by
      match a with
      | ⟨0, _⟩ => show (n.val * 32 + l.val) / 32 = n.val; omega
      | ⟨1, _⟩ => show (n.val * 32 + l.val) / 1 % 32 = l.val; omega
      | ⟨2, _⟩ => rfl)
  rw [e0]
  have e1 : ∀ k : Fin 512, lidx_main_v44 (ix3 n l (0 : Fin 1)) k = ix3 n l k := fun k =>
    funext fun a => Fin.ext (by match a with | ⟨0, _⟩ => rfl | ⟨1, _⟩ => rfl | ⟨2, _⟩ => rfl)
  have e2 : ∀ k : Fin 512, ridx_main_v44 (ix3 n l (0 : Fin 1)) k = ix2 k (0 : Fin 1) := fun k =>
    funext fun a => Fin.ext (by match a with | ⟨0, _⟩ => rfl | ⟨1, _⟩ => rfl)
  have e3 : idx_main_v45 (idx_main_v46 (ix3 n l (0 : Fin 1))) = ix1 (0 : Fin 1) :=
    funext fun a => Fin.ext (by match a with | ⟨0, _⟩ => rfl)
  rw [e3]
  simp only [e1, e2, normed_apply x0 x1 x2 x3 x5 x6 x7 x8 x9 x10 n l r hr]
  rfl

end Row

/-! ## The straight-through gate value `%86` -/

section Hard

variable (n : Fin 4096) (l : Fin 32) (gt : EReal)
  (hg : val_main_v48 (F := Ideal) x0 x1 x2 x3 x5 x6 x7 x8 x9 x10 x11 x12 (ix2 n l) = gt)
include hg

/-- `%81`: the stretched and clipped sigmoid of the gate and the uniform sample. The reference writes the logistic as
    `1 / (1 + exp (−x))` with the word of `1.0`, and `log1p (−u)` where the specification has `log1p (0 − u)`. -/
theorem s_apply :
    val_main_v81 (F := Ideal) x0 x1 x2 x3 x4 x5 x6 x7 x8 x9 x10 x11 x12 (ix2 n l) = sOf gt (x4 (ix2 n l)) := by
  rw [val_main_v81_apply, val_main_call0_v4_apply, val_main_call0_v3_apply, val_main_cst_18_apply, val_main_call0_v2_apply,
    val_main_call0_v1_apply, val_main_call0_v0_apply, val_main_cst_17_apply, val_main_v80_apply, val_main_v78_apply,
    val_main_v66_apply, val_main_v65_apply, val_main_cst_9_apply, val_main_v64_apply, val_main_v63_apply, val_main_cst_8_apply,
    val_main_v62_apply, val_main_v61_apply, val_main_v60_apply, val_main_v58_apply, val_main_v57_apply, val_main_v54_apply,
    val_main_v56_apply, val_main_v55_apply, val_main_v53_apply, hg, val_main_v52_apply, val_main_cst_6_apply, val_main_v59_apply,
    val_main_cst_7_apply, val_main_v77_apply, val_main_cst_15_apply, val_main_v79_apply, val_main_cst_16_apply]
  unfold sOf Ideal.logistic
  simp only [Ideal.minimumf_def, Ideal.maximumf_def, Ideal.addf_def, Ideal.mulf_def, Ideal.subf_def, Ideal.hostDivf_def,
    Ideal.hostUnary_exp_def, Ideal.hostUnary_log_def, Ideal.hostUnary_log1p_def, Ideal.hostNegf_def, Ideal.negf_def,
    Ideal.ofBits_def, w1_eq, w0_eq, zero_sub]

/-- `%86 = %81 + (%84 − %81)`, with `%84` the bit `%81 > 1/2` as a float: the specification's hard gate. -/
theorem hard_apply :
    val_main_v86 (F := Ideal) x0 x1 x2 x3 x4 x5 x6 x7 x8 x9 x10 x11 x12 (ix2 n l) = hardOf gt (x4 (ix2 n l)) := by
  rw [val_main_v86_apply, val_main_v85_apply, val_main_v84_apply, val_main_v83_apply, val_main_v82_apply, val_main_cst_19_apply,
    s_apply x0 x1 x2 x3 x4 x5 x6 x7 x8 x9 x10 x11 x12 n l gt hg]
  exact ste_eq gt (x4 (ix2 n l))

end Hard

/-! ## The three arrays -/

/-- `%48`, the gate, is the specification's gate array. -/
theorem gate_eq :
    val_main_v48 (F := Ideal) x0 x1 x2 x3 x5 x6 x7 x8 x9 x10 x11 x12 = (inp x0 x1 x2 x3 x4 x5 x6 x7 x8 x9 x10 x11 x12).gateArr := by
  funext i
  obtain ⟨n, l, rfl⟩ : ∃ (n : Fin 4096) (l : Fin 32), i = ix2 n l := ⟨i 0, i 1, eq_ix2 i⟩
  rw [Inp.gateArr_ix2]
  exact gate_apply x0 x1 x2 x3 x5 x6 x7 x8 x9 x10 x11 x12 n l _
    (fm_apply x0 x1 x2 x3 x4 x5 x6 x7 x8 x9 x10 x11 x12 n l)

/-- `%86`, the straight-through value `s + (hard − s)`, is the specification's hard-gate array. -/
theorem hard_eq :
    val_main_v86 (F := Ideal) x0 x1 x2 x3 x4 x5 x6 x7 x8 x9 x10 x11 x12 = (inp x0 x1 x2 x3 x4 x5 x6 x7 x8 x9 x10 x11 x12).hardArr := by
  funext i
  obtain ⟨n, l, rfl⟩ : ∃ (n : Fin 4096) (l : Fin 32), i = ix2 n l := ⟨i 0, i 1, eq_ix2 i⟩
  rw [Inp.hardArr_ix2]
  exact hard_apply x0 x1 x2 x3 x4 x5 x6 x7 x8 x9 x10 x11 x12 n l _
    ((congrFun (gate_eq x0 x1 x2 x3 x4 x5 x6 x7 x8 x9 x10 x11 x12) (ix2 n l)).trans
      (Inp.gateArr_ix2 _ n l))

/-- `%51`, the new memory, is the specification's new-memory array. -/
theorem mem_eq :
    val_main_v51 (F := Ideal) x0 x1 x2 x3 x5 x6 x7 x8 = (inp x0 x1 x2 x3 x4 x5 x6 x7 x8 x9 x10 x11 x12).memArr := by
  funext i
  obtain ⟨n, j, rfl⟩ : ∃ (n : Fin 4096) (j : Fin 512), i = ix2 n j := ⟨i 0, i 1, eq_ix2 i⟩
  rw [Inp.memArr_ix2]
  exact mem_apply x0 x1 x2 x3 x5 x6 x7 x8 n j _
    (fun l => fm_apply x0 x1 x2 x3 x4 x5 x6 x7 x8 x9 x10 x11 x12 n l j)

end Cert.RefValue

end
-- ==== Proof.LibLayoutRead.lean ====
/-
  Layout operations of small ranks read at an index given by its coordinates.

  Each lemma names the operand index a broadcast, a shape cast or a one-axis sum reads, for an index written with the
  coordinate constructors `ix1 … ix3`: a column or a trailing unit axis broadcast along the axis it lacks, a vector laid
  along the last axis of a rank-3 array, a unit axis appended or inserted by a cast, the leading two axes of a rank-3
  array merged into one (row `p * b + q`) and split again, and the sum of a rank-3 array over its last or its middle
  axis as a sum over that axis's coordinate. All are stated for any extents.
-/
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.LibLayoutRead

variable {α : Type}

/-! ## Broadcasts along the axes an operand lacks -/

/-- A column `[a, 1]` broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A one-element matrix `[1, 1]` broadcast to `[a, b]` reads its one element everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- `[a, b, 1]` broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector laid along the last axis, `[1, 1, c]`, broadcast to `[a, b, c]` reads, at `(p, q, r)`, the operand at `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- `[a, 1, c]` broadcast to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-! ## Unit axes appended or inserted by a cast -/

/-- `[a, b]` cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[c]` cast to `[1, 1, c]` reads, at `(u, v, r)`, the operand at `r`. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    rw [hu, hv]
    omega)

/-- `[a, c]` cast to `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-! ## The two leading axes of a rank-3 array merged and split -/

/-- `[a, b, c]` cast to `[n, c]` with `n = a * b` reads, at row `p * b + q` and column `r`, the operand at `(p, q, r)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (r : Fin c)
    (hpq : p.val * b + q.val < n) :
    shapeCast ⟨2, ![n, c]⟩ x h (ix2 (⟨p.val * b + q.val, hpq⟩ : Fin n) r) = x (ix3 p q r) :=
  shapeCast_apply x h _ _ (by
    rw [Shape.rowMajor_val_three, Shape.rowMajor_val_two]
    show (p.val * b + q.val) * c + r.val = (p.val * b + q.val) * c + r.val
    rfl)

/-- `[n, c]` with `n = a * b` cast to `[a, b, c]` reads, at `(p, q, r)`, the operand at row `p * b + q`, column `r`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (r : Fin c)
    (hpq : p.val * b + q.val < n) :
    shapeCast ⟨3, ![a, b, c]⟩ x h (ix3 p q r) = x (ix2 (⟨p.val * b + q.val, hpq⟩ : Fin n) r) :=
  shapeCast_apply x h _ _ (by
    rw [Shape.rowMajor_val_three, Shape.rowMajor_val_two]
    show (p.val * b + q.val) * c + r.val = (p.val * b + q.val) * c + r.val
    rfl)

/-! ## The sum over one axis of a rank-3 array, at the ideal values -/

/-- The sum of `[a, b, c]` over its last axis, from the zero accumulator, is at `(p, q)` the sum over `r` of the
    operand at `(p, q, r)`. -/
theorem sum_last_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (p : Fin a) (q : Fin b) :
    multiReduction .add [2] ⟨2, ![a, b]⟩ src 0x00000000#32 h hφ hacc (ix2 p q) = ∑ r : Fin c, src (ix3 p q r) := by
  refine (Ideal.multiReduction_add_single src 0x00000000#32 h hφ hacc (ix2 p q)).trans ?_
  refine Finset.sum_congr rfl fun r _ => congrArg src (funext fun ax => Fin.ext ?_)
  match ax with
  | ⟨0, _⟩ => rfl
  | ⟨1, _⟩ => rfl
  | ⟨2, _⟩ => rfl

/-- The sum of `[a, b, c]` over its middle axis, from the zero accumulator, is at `(p, r)` the sum over `q` of the
    operand at `(p, q, r)`. -/
theorem sum_mid_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (p : Fin a) (r : Fin c) :
    multiReduction .add [1] ⟨2, ![a, c]⟩ src 0x00000000#32 h hφ hacc (ix2 p r) = ∑ q : Fin b, src (ix3 p q r) := by
  refine (Ideal.multiReduction_add_single src 0x00000000#32 h hφ hacc (ix2 p r)).trans ?_
  refine Finset.sum_congr rfl fun q _ => congrArg src (funext fun ax => Fin.ext ?_)
  match ax with
  | ⟨0, _⟩ => rfl
  | ⟨1, _⟩ => rfl
  | ⟨2, _⟩ => rfl

end Cert.LibLayoutRead

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.KernelPay.lean ====
/-
  The kernel body's arithmetic at one block index, at the ideal values.

  A grid point works on 32 consecutive nodes. For local node `p`, neighbour `l` and channel `j` the body's first value is
  the entry `fm (p, l, j)` of the layer's product, computed as two matrix products into zero accumulators (the edge
  messages against the top half of `W0`, the memory rows against the bottom half, the bias joined to the second); every
  later value is a function of the rows of that array: the gate, the thresholded gate and the mean over the neighbours.
  Each lemma reads one named value of the body at an index written by coordinates and states it in the specification's words.
-/
import proofs.«162773_j29892972380504_1_alg».proof.Proof.Gen.KernelIdeal.Skeleton
import proofs.«162773_j29892972380504_1_alg».proof.Proof.Spec
import proofs.«162773_j29892972380504_1_alg».proof.Proof.LibLayoutRead
import proofs.«162773_j29892972380504_1_alg».proof.Proof.LibPlainMatmul
import Idealize.ShloMosaic.Lib.ValueLayout
import Idealize.ShloMosaic.Lib.KernelVsHost

noncomputable section

open scoped BigOperators
open Idealize.ShloMosaic Idealize.ShloMosaic.ValueIdx

namespace Cert.KernelPay

open Cert.KernelIdeal Cert.KernelIdeal.Gen Cert.Spec Cert.LibLayoutRead

/-! ## The two products' index maps: rows of the left operand, columns of the right, one contracted axis -/

theorem dA_l0 (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem dA_l1 (i : S1024x512.Idx) (q : dot_S1024x512_S512x512_S1024x512_1_0_0_1_n_n.contr.Idx) : (dot_S1024x512_S512x512_S1024x512_1_0_0_1_n_n.lhsIdx i q 1).val = (q ⟨0, by decide⟩).val :=
  dot_S1024x512_S512x512_S1024x512_1_0_0_1_n_n.lhsIdx_val_of_single rfl i q
theorem dA_r0 (i : S1024x512.Idx) (q : dot_S1024x512_S512x512_S1024x512_1_0_0_1_n_n.contr.Idx) : (dot_S1024x512_S512x512_S1024x512_1_0_0_1_n_n.rhsIdx i q 0).val = (q ⟨0, by decide⟩).val :=
  dot_S1024x512_S512x512_S1024x512_1_0_0_1_n_n.rhsIdx_val_of_single rfl i q
theorem dA_r1 (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

theorem dB_l0 (i : S32x512.Idx) (q : dot_S32x512_S512x512_S32x512_1_0_0_1_n_n.contr.Idx) : (dot_S32x512_S512x512_S32x512_1_0_0_1_n_n.lhsIdx i q 0).val = (i 0).val := by
  unfold DotDims.lhsIdx
  rw [dif_neg (show ¬(0 : Fin S32x512.rank) ∈ dot_S32x512_S512x512_S32x512_1_0_0_1_n_n.lhsBatch by decide), dif_pos (show (0 : Fin S32x512.rank) ∈ dot_S32x512_S512x512_S32x512_1_0_0_1_n_n.lhsNonContracting by decide)]
  rfl
theorem dB_l1 (i : S32x512.Idx) (q : dot_S32x512_S512x512_S32x512_1_0_0_1_n_n.contr.Idx) : (dot_S32x512_S512x512_S32x512_1_0_0_1_n_n.lhsIdx i q 1).val = (q ⟨0, by decide⟩).val :=
  dot_S32x512_S512x512_S32x512_1_0_0_1_n_n.lhsIdx_val_of_single rfl i q
theorem dB_r0 (i : S32x512.Idx) (q : dot_S32x512_S512x512_S32x512_1_0_0_1_n_n.contr.Idx) : (dot_S32x512_S512x512_S32x512_1_0_0_1_n_n.rhsIdx i q 0).val = (q ⟨0, by decide⟩).val :=
  dot_S32x512_S512x512_S32x512_1_0_0_1_n_n.rhsIdx_val_of_single rfl i q
theorem dB_r1 (i : S32x512.Idx) (q : dot_S32x512_S512x512_S32x512_1_0_0_1_n_n.contr.Idx) : (dot_S32x512_S512x512_S32x512_1_0_0_1_n_n.rhsIdx i q 1).val = (i 1).val := by
  unfold DotDims.rhsIdx
  rw [dif_neg (show ¬(1 : Fin S512x512.rank) ∈ dot_S32x512_S512x512_S32x512_1_0_0_1_n_n.rhsBatch by decide), dif_pos (show (1 : Fin S512x512.rank) ∈ dot_S32x512_S512x512_S32x512_1_0_0_1_n_n.rhsNonContracting by decide)]
  rfl

/-- The messages' product at row `r`, column `j`: the sum over `k` of `A (r, k) · B (k, j)`. -/
theorem matmulA_apply (A : FVec Ideal S1024x512 .bf16) (B : FVec Ideal S512x512 .bf16) (r : Fin 1024) (j : Fin 512) :
    matmul dot_S1024x512_S512x512_S1024x512_1_0_0_1_n_n none A B (constant (F := Ideal) S1024x512 .f32 0x00000000#32) (ix2 r j)
      = ∑ k : Fin 512, A (ix2 r k) * B (ix2 k j) :=
  Cert.LibPlainMatmul.matmul_zero_apply dot_S1024x512_S512x512_S1024x512_1_0_0_1_n_n none rfl rfl dA_l0 dA_l1 dA_r0 dA_r1 A B r j

/-- The memory rows' product at row `p`, column `j`. -/
theorem matmulB_apply (A : FVec Ideal S32x512 .bf16) (B : FVec Ideal S512x512 .bf16) (p : Fin 32) (j : Fin 512) :
    matmul dot_S32x512_S512x512_S32x512_1_0_0_1_n_n none A B (constant (F := Ideal) S32x512 .f32 0x00000000#32) (ix2 p j)
      = ∑ k : Fin 512, A (ix2 p k) * B (ix2 k j) :=
  Cert.LibPlainMatmul.matmul_zero_apply dot_S32x512_S512x512_S32x512_1_0_0_1_n_n none rfl rfl dB_l0 dB_l1 dB_r0 dB_r1 A B p j

/-! ## Pointwise operations read at an index -/

theorem cos_apply {s : Shape} (a : FVec Ideal s .f32) (i : s.Idx) : cos a i = Ideal.cos (a i) := rfl
theorem rsqrt_apply {s : Shape} (a : FVec Ideal s .f32) (i : s.Idx) : rsqrt a i = Ideal.rsqrt (a i) := rfl
theorem log_apply {s : Shape} (a : FVec Ideal s .f32) (i : s.Idx) : log a i = Ideal.log (a i) := rfl
theorem log1p_apply {s : Shape} (a : FVec Ideal s .f32) (i : s.Idx) : log1p a i = Ideal.log1p (a i) := rfl
theorem logistic_apply {s : Shape} (a : FVec Ideal s .f32) (i : s.Idx) : logistic a i = Ideal.logistic (a i) := rfl

/-! ## The layer's product -/

/-- The body's first value at `(p, l, j)` is `fm` of row `(p, l)` of the edge features, the time gap, row `p` of the
    memory and column `j` of the two halves of `W0`. -/
theorem pay2_apply (v0 : Vec Ideal S32x32 .f32) (v1 : Vec Ideal S32x1 .f32) (v5 v6 : Vec Ideal S512 .f32)
    (v16 : Vec Ideal S32x32x512 .f32) (v19 v20 : Vec Ideal S512x512 .f32) (v24 : Vec Ideal S32x512 .f32)
    (v28 : Vec Ideal S512 .f32) (p l : Fin 32) (j : Fin 512) :
    k0_pay2 v0 v1 v5 v6 v16 v19 v20 v24 v28 (ix3 p l j)
      = fmEntry (fun k => v16 (ix3 p l k)) (fun k => v24 (ix2 p k)) (fun k => v5 (ix1 k)) (fun k => v6 (ix1 k))
          (fun k => v19 (ix2 k j)) (fun k => v20 (ix2 k j)) (v0 (ix2 p l) - v1 (ix2 p (0 : Fin 1))) (v28 (ix1 j)) := by
  have hpl : p.val * 32 + l.val < 1024 := by omega
  unfold k0_pay2 fmEntry
  dsimp only
  rw [addf_apply, shapeCast_nc_abc_apply _ _ p l j hpl, matmulA_apply,
    broadcastTo_a1c_abc_apply, shapeCast_ac_a1c_apply, addf_apply, matmulB_apply,
    broadcastTo_1b_ab_apply, shapeCast_a_1a_apply]
  simp only [truncf_apply, shapeCast_abc_nc_apply _ _ p l _ hpl, addf_apply, cos_apply, mulf_apply, subf_apply,
    broadcastTo_ab1_abc_apply, shapeCast_ab_ab1_apply, broadcastTo_a1_ab_apply, shapeCast_self,
    broadcastTo_11c_abc_apply, shapeCast_c_11c_apply]

/-! ## The values computed from the product's rows -/

/-- The body's row sums, shaped `[32, 32, 1]`, at `(p, l, 0)`: the sum of row `(p, l)`. -/
theorem pay3_apply (v0 : Vec Ideal S32x32 .f32) (v1 : Vec Ideal S32x1 .f32) (v5 v6 : Vec Ideal S512 .f32)
    (v16 : Vec Ideal S32x32x512 .f32) (v19 v20 : Vec Ideal S512x512 .f32) (v24 : Vec Ideal S32x512 .f32)
    (v28 : Vec Ideal S512 .f32) (p l : Fin 32) (u : Fin 1) :
    k0_pay3 v0 v1 v5 v6 v16 v19 v20 v24 v28 (ix3 p l u)
      = ∑ j : Fin 512, k0_pay2 v0 v1 v5 v6 v16 v19 v20 v24 v28 (ix3 p l j) := by
  unfold k0_pay3
  dsimp only
  rw [shapeCast_ab_ab1_apply, sum_last_apply]

/-- The gate at `(p, l)` from the product array `v35`, its row sums `v37` and the splat of 512 `v38`: the layer norm of
    row `(p, l)` contracted with `w`, plus `b1`. -/
theorem pay5_apply (v35 : FVec Ideal S32x32x512 .f32) (v37 v38 : FVec Ideal S32x32x1 .f32) (v54 v58 v62 : Vec Ideal S512 .f32)
    (v68 : Vec Ideal S1 .f32) (p l : Fin 32)
    (h37 : v37 (ix3 p l (0 : Fin 1)) = ∑ j : Fin 512, v35 (ix3 p l j)) (h38 : v38 (ix3 p l (0 : Fin 1)) = w512) :
    k0_pay5 v35 v37 v38 v54 v58 v62 v68 (ix2 p l)
      = gateRow (fun j => v35 (ix3 p l j)) (fun j => v54 (ix1 j)) (fun j => v58 (ix1 j)) (fun j => v62 (ix1 j))
          (v68 (ix1 (0 : Fin 1))) := by
  unfold k0_pay5 gateRow
  dsimp only
  rw [addf_apply, sum_last_apply, broadcastTo_11_ab_apply, shapeCast_a_1a_apply]
  simp only [mulf_apply, addf_apply, subf_apply, divf_apply, rsqrt_apply, broadcast_apply,
    broadcastTo_ab1_abc_apply, shapeCast_ab_ab1_apply, broadcastTo_11c_abc_apply, shapeCast_c_11c_apply, shapeCast_self,
    h37, h38]
  rw [sum_last_apply]
  simp only [mulf_apply, subf_apply, divf_apply, broadcastTo_ab1_abc_apply, h37, h38]
  rfl

/-- The mean over the neighbours at `(p, j)`. -/
theorem pay6_apply (v35 : FVec Ideal S32x32x512 .f32) (p : Fin 32) (j : Fin 512) :
    k0_pay6 v35 (ix2 p j) = colMean fun l => v35 (ix3 p l j) := by
  unfold k0_pay6 colMean
  dsimp only
  rw [divf_apply, sum_mid_apply, broadcast_apply]
  rfl

/-- The thresholded gate at `(p, l)`, from the gate there and the uniform sample. -/
theorem pay1_apply (v35 : FVec Ideal S32x32x512 .f32) (v37 v38 : FVec Ideal S32x32x1 .f32) (v54 v58 v62 : Vec Ideal S512 .f32)
    (v68 : Vec Ideal S1 .f32) (v75 : Vec Ideal S32x32 .f32) (p l : Fin 32) :
    k0_pay1 (k0_pay7 v35 v37 v38 v54 v58 v62 v68 v75) (Scalar.ofBits .f32 0x3EAAAAAB#32) (ix2 p l)
      = hardOf (k0_pay5 v35 v37 v38 v54 v58 v62 v68 (ix2 p l)) (v75 (ix2 p l)) := by
  unfold k0_pay1 k0_pay7 hardOf sOf
  dsimp only
  rw [sitofp_extui_eq_uitofp]
  rfl

end Cert.KernelPay

end
-- ==== Proof.KernelBlocks.lean ====
/-
  What one grid point writes back, in the specification's words.

  Grid point `t` holds nodes `32 t … 32 t + 31`: its blocks of the edge features, times, update times, memory and uniform
  samples are those rows of the arrays, the parameters are whole. So the three blocks it writes back are rows
  `32 t … 32 t + 31` of the specification's gate, hard-gate and new-memory arrays.
-/
import proofs.«162773_j29892972380504_1_alg».proof.Proof.Gen.KernelIdeal.Frame
import proofs.«162773_j29892972380504_1_alg».proof.Proof.KernelPay
import Idealize.ShloMosaic.Lib.Pipeline.Value
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelVal

open Cert.KernelIdeal Cert.KernelIdeal.Gen Cert.Spec Cert.KernelPay Cert.LibLayoutRead

variable (m : (ℓ : Loc nD τ sig) → Buf (Elt Ideal) ℓ) (ρ : Dev nD → PrngReg)

/-- The kernel program's float arguments on core `c`, as the specification's inputs. -/
def inp (c : Dev nD) : Cert.Spec.Inp :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11),
   m ((c : Thread nD τ).loc main_arg12)⟩

/-! ## The rows of a grid point, and the printed index maps -/

/-- Node `32 t + p`: local node `p` of grid point `t`. -/
def row (t : Fin cfg0.N) (p : Fin 32) : Fin 4096 :=
  ⟨32 * t.val + p.val, by have ht : t.val < 128 := lt_of_lt_of_eq t.isLt N_0; omega⟩

theorem row_val (t : Fin cfg0.N) (p : Fin 32) : (row t p).val = 32 * t.val + p.val := rfl

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The edge features' window moves one block of 32 nodes per grid point. -/
theorem idxRow_0 : ∀ t : Fin cfg0.N, win0_0.index t (0 : Fin 3) = t.val ∧ win0_0.index t (1 : Fin 3) = 0 ∧ win0_0.index t (2 : Fin 3) = 0 :=
  (by decide +kernel : ∀ t : Fin grid0.N, _)
/-- So do the other per-node windows, inputs and outputs. -/
theorem idxRow_1 : ∀ t : Fin cfg0.N, win0_1.index t (0 : Fin 2) = t.val ∧ win0_1.index t (1 : Fin 2) = 0 :=
  (by decide +kernel : ∀ t : Fin grid0.N, _)
theorem idxRow_2 : ∀ t : Fin cfg0.N, win0_2.index t (0 : Fin 2) = t.val ∧ win0_2.index t (1 : Fin 2) = 0 :=
  (by decide +kernel : ∀ t : Fin grid0.N, _)
theorem idxRow_3 : ∀ t : Fin cfg0.N, win0_3.index t (0 : Fin 2) = t.val ∧ win0_3.index t (1 : Fin 2) = 0 :=
  (by decide +kernel : ∀ t : Fin grid0.N, _)
theorem idxRow_4 : ∀ t : Fin cfg0.N, win0_4.index t (0 : Fin 2) = t.val ∧ win0_4.index t (1 : Fin 2) = 0 :=
  (by decide +kernel : ∀ t : Fin grid0.N, _)
theorem idxRow_13 : ∀ t : Fin cfg0.N, win0_13.index t (0 : Fin 2) = t.val ∧ win0_13.index t (1 : Fin 2) = 0 :=
  (by decide +kernel : ∀ t : Fin grid0.N, _)
theorem idxRow_14 : ∀ t : Fin cfg0.N, win0_14.index t (0 : Fin 2) = t.val ∧ win0_14.index t (1 : Fin 2) = 0 :=
  (by decide +kernel : ∀ t : Fin grid0.N, _)
theorem idxRow_15 : ∀ t : Fin cfg0.N, win0_15.index t (0 : Fin 2) = t.val ∧ win0_15.index t (1 : Fin 2) = 0 :=
  (by decide +kernel : ∀ t : Fin grid0.N, _)
/-- The parameters' windows stay at block 0. -/
theorem idxZero_5 : ∀ t : Fin cfg0.N, win0_5.index t (0 : Fin 1) = 0 :=
  (by decide +kernel : ∀ t : Fin grid0.N, _)
theorem idxZero_6 : ∀ t : Fin cfg0.N, win0_6.index t (0 : Fin 1) = 0 :=
  (by decide +kernel : ∀ t : Fin grid0.N, _)
theorem idxZero_8 : ∀ t : Fin cfg0.N, win0_8.index t (0 : Fin 1) = 0 :=
  (by decide +kernel : ∀ t : Fin grid0.N, _)
theorem idxZero_9 : ∀ t : Fin cfg0.N, win0_9.index t (0 : Fin 1) = 0 :=
  (by decide +kernel : ∀ t : Fin grid0.N, _)
theorem idxZero_10 : ∀ t : Fin cfg0.N, win0_10.index t (0 : Fin 1) = 0 :=
  (by decide +kernel : ∀ t : Fin grid0.N, _)
theorem idxZero_11 : ∀ t : Fin cfg0.N, win0_11.index t (0 : Fin 1) = 0 :=
  (by decide +kernel : ∀ t : Fin grid0.N, _)
theorem idxZero_12 : ∀ t : Fin cfg0.N, win0_12.index t (0 : Fin 1) = 0 :=
  (by decide +kernel : ∀ t : Fin grid0.N, _)
theorem idxZero_7 : ∀ t : Fin cfg0.N, win0_7.index t (0 : Fin 2) = 0 ∧ win0_7.index t (1 : Fin 2) = 0 :=
  (by decide +kernel : ∀ t : Fin grid0.N, _)

/-! ## The two arrays the host reshapes before the region -/

/-- The update times as a column. -/
theorem V_main_v0 (c : Dev nD) :
    V m c main_v0 = shapeCast S4096x1 (m ((c : Thread nD τ).loc main_arg2)) shapeCasts_S4096_S4096x1 := by
  show StableHlo.after hostOps0 (fun b => m (c, b)) (Proc.devRef .tc main_v0) = _
  after_results
  rfl

/-- The output weights as a vector. -/
theorem V_main_v1 (c : Dev nD) :
    V m c main_v1 = shapeCast S512 (m ((c : Thread nD τ).loc main_arg11)) shapeCasts_S512x1_S512 := by
  show StableHlo.after hostOps0 (fun b => m (c, b)) (Proc.devRef .tc main_v1) = _
  after_results
  rfl

/-! ## Each input window's block at a point, read off the arrays -/

theorem blk0_apply (c : Dev nD) (t : Fin cfg0.N) (p l : Fin 32) (k : Fin 512) :
    iblk m c 0 t (ix3 p l k) = (inp m c).feat (ix3 (row t p) l k) := by
  obtain ⟨e0, e1, e2⟩ := idxRow_0 t
  show V m c main_arg0 (((cfg0.win 0).blk t).view.emb (ix3 p l k)) = m ((c : Thread nD τ).loc main_arg0) (ix3 (row t p) l k)
  rw [V_main_arg0]
  refine congrArg _ (funext fun a => Fin.ext ?_)
  match a with
  | ⟨0, _⟩ => show win0_0.index t (0 : Fin 3) * 32 + 1 * p.val = 32 * t.val + p.val; omega
  | ⟨1, _⟩ => show win0_0.index t (1 : Fin 3) * 32 + 1 * l.val = l.val; omega
  | ⟨2, _⟩ => show win0_0.index t (2 : Fin 3) * 512 + 1 * k.val = k.val; omega

theorem blk1_apply (c : Dev nD) (t : Fin cfg0.N) (p l : Fin 32) :
    iblk m c 1 t (ix2 p l) = (inp m c).ts (ix2 (row t p) l) := by
  obtain ⟨e0, e1⟩ := idxRow_1 t
  show V m c main_arg1 (((cfg0.win 1).blk t).view.emb (ix2 p l)) = m ((c : Thread nD τ).loc main_arg1) (ix2 (row t p) l)
  rw [V_main_arg1]
  refine congrArg _ (funext fun a => Fin.ext ?_)
  match a with
  | ⟨0, _⟩ => show win0_1.index t (0 : Fin 2) * 32 + 1 * p.val = 32 * t.val + p.val; omega
  | ⟨1, _⟩ => show win0_1.index t (1 : Fin 2) * 32 + 1 * l.val = l.val; omega

theorem blk2_apply (c : Dev nD) (t : Fin cfg0.N) (p : Fin 32) :
    iblk m c 2 t (ix2 p (0 : Fin 1)) = (inp m c).lu (ix1 (row t p)) := by
  obtain ⟨e0, e1⟩ := idxRow_2 t
  show V m c main_v0 (((cfg0.win 2).blk t).view.emb (ix2 p (0 : Fin 1))) = m ((c : Thread nD τ).loc main_arg2) (ix1 (row t p))
  rw [V_main_v0]
  refine shapeCast_apply _ _ _ (ix1 (row t p)) ?_
  rw [Shape.rowMajor_val_one, Shape.rowMajor_val_two]
  show 32 * t.val + p.val = (win0_2.index t (0 : Fin 2) * 32 + 1 * p.val) * 1 + (win0_2.index t (1 : Fin 2) * 1 + 1 * 0)
  omega

theorem blk3_apply (c : Dev nD) (t : Fin cfg0.N) (p : Fin 32) (k : Fin 512) :
    iblk m c 3 t (ix2 p k) = (inp m c).mem (ix2 (row t p) k) := by
  obtain ⟨e0, e1⟩ := idxRow_3 t
  show V m c main_arg3 (((cfg0.win 3).blk t).view.emb (ix2 p k)) = m ((c : Thread nD τ).loc main_arg3) (ix2 (row t p) k)
  rw [V_main_arg3]
  refine congrArg _ (funext fun a => Fin.ext ?_)
  match a with
  | ⟨0, _⟩ => show win0_3.index t (0 : Fin 2) * 32 + 1 * p.val = 32 * t.val + p.val; omega
  | ⟨1, _⟩ => show win0_3.index t (1 : Fin 2) * 512 + 1 * k.val = k.val; omega

theorem blk4_apply (c : Dev nD) (t : Fin cfg0.N) (p l : Fin 32) :
    iblk m c 4 t (ix2 p l) = (inp m c).u (ix2 (row t p) l) := by
  obtain ⟨e0, e1⟩ := idxRow_4 t
  show V m c main_arg4 (((cfg0.win 4).blk t).view.emb (ix2 p l)) = m ((c : Thread nD τ).loc main_arg4) (ix2 (row t p) l)
  rw [V_main_arg4]
  refine congrArg _ (funext fun a => Fin.ext ?_)
  match a with
  | ⟨0, _⟩ => show win0_4.index t (0 : Fin 2) * 32 + 1 * p.val = 32 * t.val + p.val; omega
  | ⟨1, _⟩ => show win0_4.index t (1 : Fin 2) * 32 + 1 * l.val = l.val; omega

theorem blk5_apply (c : Dev nD) (t : Fin cfg0.N) (j : Fin 512) :
    iblk m c 5 t (ix1 j) = (inp m c).basis (ix1 j) := by
  have e0 := idxZero_5 t
  show V m c main_arg5 (((cfg0.win 5).blk t).view.emb (ix1 j)) = m ((c : Thread nD τ).loc main_arg5) (ix1 j)
  rw [V_main_arg5]
  refine congrArg _ (funext fun a => Fin.ext ?_)
  match a with
  | ⟨0, _⟩ => show win0_5.index t (0 : Fin 1) * 512 + 1 * j.val = j.val; omega

theorem blk6_apply (c : Dev nD) (t : Fin cfg0.N) (j : Fin 512) :
    iblk m c 6 t (ix1 j) = (inp m c).phase (ix1 j) := by
  have e0 := idxZero_6 t
  show V m c main_arg6 (((cfg0.win 6).blk t).view.emb (ix1 j)) = m ((c : Thread nD τ).loc main_arg6) (ix1 j)
  rw [V_main_arg6]
  refine congrArg _ (funext fun a => Fin.ext ?_)
  match a with
  | ⟨0, _⟩ => show win0_6.index t (0 : Fin 1) * 512 + 1 * j.val = j.val; omega

/-- The top half of `W0`, loaded from rows `0 … 511` of its whole block. -/
theorem blk7t_apply (c : Dev nD) (t : Fin cfg0.N) (k j : Fin 512) :
    View.ld (iblk m c 7 t) r0_4 (ix2 k j) = (inp m c).W0 (ix2 (⟨k.val, by omega⟩ : Fin 1024) j) := by
  obtain ⟨e0, e1⟩ := idxZero_7 t
  show V m c main_arg7 (((cfg0.win 7).blk t).view.emb (r0_4.idx (ix2 k j))) = m ((c : Thread nD τ).loc main_arg7) (ix2 (⟨k.val, by omega⟩ : Fin 1024) j)
  rw [V_main_arg7]
  refine congrArg _ (funext fun a => Fin.ext ?_)
  match a with
  | ⟨0, _⟩ => show win0_7.index t (0 : Fin 2) * 1024 + 1 * (0 + 1 * k.val) = k.val; omega
  | ⟨1, _⟩ => show win0_7.index t (1 : Fin 2) * 512 + 1 * (0 + 1 * j.val) = j.val; omega

/-- The bottom half of `W0`, loaded from rows `512 … 1023`. -/
theorem blk7b_apply (c : Dev nD) (t : Fin cfg0.N) (k j : Fin 512) :
    View.ld (iblk m c 7 t) r0_5 (ix2 k j) = (inp m c).W0 (ix2 (⟨512 + k.val, by omega⟩ : Fin 1024) j) := by
  obtain ⟨e0, e1⟩ := idxZero_7 t
  show V m c main_arg7 (((cfg0.win 7).blk t).view.emb (r0_5.idx (ix2 k j))) = m ((c : Thread nD τ).loc main_arg7) (ix2 (⟨512 + k.val, by omega⟩ : Fin 1024) j)
  rw [V_main_arg7]
  refine congrArg _ (funext fun a => Fin.ext ?_)
  match a with
  | ⟨0, _⟩ => show win0_7.index t (0 : Fin 2) * 1024 + 1 * (512 + 1 * k.val) = 512 + k.val; omega
  | ⟨1, _⟩ => show win0_7.index t (1 : Fin 2) * 512 + 1 * (0 + 1 * j.val) = j.val; omega

theorem blk8_apply (c : Dev nD) (t : Fin cfg0.N) (j : Fin 512) :
    iblk m c 8 t (ix1 j) = (inp m c).b0 (ix1 j) := by
  have e0 := idxZero_8 t
  show V m c main_arg8 (((cfg0.win 8).blk t).view.emb (ix1 j)) = m ((c : Thread nD τ).loc main_arg8) (ix1 j)
  rw [V_main_arg8]
  refine congrArg _ (funext fun a => Fin.ext ?_)
  match a with
  | ⟨0, _⟩ => show win0_8.index t (0 : Fin 1) * 512 + 1 * j.val = j.val; omega

theorem blk9_apply (c : Dev nD) (t : Fin cfg0.N) (j : Fin 512) :
    iblk m c 9 t (ix1 j) = (inp m c).g (ix1 j) := by
  have e0 := idxZero_9 t
  show V m c main_arg9 (((cfg0.win 9).blk t).view.emb (ix1 j)) = m ((c : Thread nD τ).loc main_arg9) (ix1 j)
  rw [V_main_arg9]
  refine congrArg _ (funext fun a => Fin.ext ?_)
  match a with
  | ⟨0, _⟩ => show win0_9.index t (0 : Fin 1) * 512 + 1 * j.val = j.val; omega

theorem blk10_apply (c : Dev nD) (t : Fin cfg0.N) (j : Fin 512) :
    iblk m c 10 t (ix1 j) = (inp m c).b (ix1 j) := by
  have e0 := idxZero_10 t
  show V m c main_arg10 (((cfg0.win 10).blk t).view.emb (ix1 j)) = m ((c : Thread nD τ).loc main_arg10) (ix1 j)
  rw [V_main_arg10]
  refine congrArg _ (funext fun a => Fin.ext ?_)
  match a with
  | ⟨0, _⟩ => show win0_10.index t (0 : Fin 1) * 512 + 1 * j.val = j.val; omega

theorem blk11_apply (c : Dev nD) (t : Fin cfg0.N) (j : Fin 512) :
    iblk m c 11 t (ix1 j) = (inp m c).W1 (ix2 j (0 : Fin 1)) := by
  have e0 := idxZero_11 t
  show V m c main_v1 (((cfg0.win 11).blk t).view.emb (ix1 j)) = m ((c : Thread nD τ).loc main_arg11) (ix2 j (0 : Fin 1))
  rw [V_main_v1]
  refine shapeCast_apply _ _ _ (ix2 j (0 : Fin 1)) ?_
  rw [Shape.rowMajor_val_one, Shape.rowMajor_val_two]
  show j.val * 1 + 0 = win0_11.index t (0 : Fin 1) * 512 + 1 * j.val
  omega

theorem blk12_apply (c : Dev nD) (t : Fin cfg0.N) (u : Fin 1) :
    iblk m c 12 t (ix1 u) = (inp m c).b1 (ix1 u) := by
  have e0 := idxZero_12 t
  show V m c main_arg12 (((cfg0.win 12).blk t).view.emb (ix1 u)) = m ((c : Thread nD τ).loc main_arg12) (ix1 u)
  rw [V_main_arg12]
  refine congrArg _ (funext fun a => Fin.ext ?_)
  match a with
  | ⟨0, _⟩ => show win0_12.index t (0 : Fin 1) * 1 + 1 * u.val = u.val; omega

/-! ## The body's values at a point, in the specification's words -/

/-- The product entry at local `(p, l, j)` of point `t` is `fm (32 t + p, l, j)`. -/
theorem fm_blk (c : Dev nD) (t : Fin cfg0.N) (p l : Fin 32) (j : Fin 512) :
    (k0_pay2 (iblk m c 1 t) (iblk m c 2 t) (iblk m c 5 t) (iblk m c 6 t) (iblk m c 0 t) (View.ld (iblk m c 7 t) r0_4) (View.ld (iblk m c 7 t) r0_5) (iblk m c 3 t) (iblk m c 8 t)) (ix3 p l j) = (inp m c).fm (row t p) l j := by
  refine (pay2_apply (iblk m c 1 t) (iblk m c 2 t) (iblk m c 5 t) (iblk m c 6 t) (iblk m c 0 t) (View.ld (iblk m c 7 t) r0_4) (View.ld (iblk m c 7 t) r0_5) (iblk m c 3 t) (iblk m c 8 t) p l j).trans ?_
  unfold Inp.fm
  simp only [blk0_apply, blk1_apply, blk2_apply, blk3_apply, blk5_apply, blk6_apply, blk7t_apply, blk7b_apply, blk8_apply]

/-- The gate at local `(p, l)` of point `t` is `gate (32 t + p, l)`. -/
theorem gate_blk (c : Dev nD) (t : Fin cfg0.N) (p l : Fin 32) :
    k0_pay5 (k0_pay2 (iblk m c 1 t) (iblk m c 2 t) (iblk m c 5 t) (iblk m c 6 t) (iblk m c 0 t) (View.ld (iblk m c 7 t) r0_4) (View.ld (iblk m c 7 t) r0_5) (iblk m c 3 t) (iblk m c 8 t)) (k0_pay3 (iblk m c 1 t) (iblk m c 2 t) (iblk m c 5 t) (iblk m c 6 t) (iblk m c 0 t) (View.ld (iblk m c 7 t) r0_4) (View.ld (iblk m c 7 t) r0_5) (iblk m c 3 t) (iblk m c 8 t)) (k0_pay4 (F := Ideal)) (iblk m c 9 t) (iblk m c 10 t) (iblk m c 11 t) (iblk m c 12 t) (ix2 p l) = (inp m c).gate (row t p) l := by
  refine (pay5_apply (k0_pay2 (iblk m c 1 t) (iblk m c 2 t) (iblk m c 5 t) (iblk m c 6 t) (iblk m c 0 t) (View.ld (iblk m c 7 t) r0_4) (View.ld (iblk m c 7 t) r0_5) (iblk m c 3 t) (iblk m c 8 t)) (k0_pay3 (iblk m c 1 t) (iblk m c 2 t) (iblk m c 5 t) (iblk m c 6 t) (iblk m c 0 t) (View.ld (iblk m c 7 t) r0_4) (View.ld (iblk m c 7 t) r0_5) (iblk m c 3 t) (iblk m c 8 t)) (k0_pay4 (F := Ideal)) (iblk m c 9 t) (iblk m c 10 t) (iblk m c 11 t) (iblk m c 12 t) p l (pay3_apply (iblk m c 1 t) (iblk m c 2 t) (iblk m c 5 t) (iblk m c 6 t) (iblk m c 0 t) (View.ld (iblk m c 7 t) r0_4) (View.ld (iblk m c 7 t) r0_5) (iblk m c 3 t) (iblk m c 8 t) p l (0 : Fin 1)) rfl).trans ?_
  unfold Inp.gate
  simp only [fm_blk, blk9_apply, blk10_apply, blk11_apply, blk12_apply]

/-- The hard gate at local `(p, l)` of point `t` is `hard (32 t + p, l)`. -/
theorem hard_blk (c : Dev nD) (t : Fin cfg0.N) (p l : Fin 32) :
    k0_pay1 (k0_pay7 (k0_pay2 (iblk m c 1 t) (iblk m c 2 t) (iblk m c 5 t) (iblk m c 6 t) (iblk m c 0 t) (View.ld (iblk m c 7 t) r0_4) (View.ld (iblk m c 7 t) r0_5) (iblk m c 3 t) (iblk m c 8 t)) (k0_pay3 (iblk m c 1 t) (iblk m c 2 t) (iblk m c 5 t) (iblk m c 6 t) (iblk m c 0 t) (View.ld (iblk m c 7 t) r0_4) (View.ld (iblk m c 7 t) r0_5) (iblk m c 3 t) (iblk m c 8 t)) (k0_pay4 (F := Ideal)) (iblk m c 9 t) (iblk m c 10 t) (iblk m c 11 t) (iblk m c 12 t) (iblk m c 4 t)) (Scalar.ofBits .f32 0x3EAAAAAB#32) (ix2 p l)
      = (inp m c).hard (row t p) l := by
  refine (pay1_apply (k0_pay2 (iblk m c 1 t) (iblk m c 2 t) (iblk m c 5 t) (iblk m c 6 t) (iblk m c 0 t) (View.ld (iblk m c 7 t) r0_4) (View.ld (iblk m c 7 t) r0_5) (iblk m c 3 t) (iblk m c 8 t)) (k0_pay3 (iblk m c 1 t) (iblk m c 2 t) (iblk m c 5 t) (iblk m c 6 t) (iblk m c 0 t) (View.ld (iblk m c 7 t) r0_4) (View.ld (iblk m c 7 t) r0_5) (iblk m c 3 t) (iblk m c 8 t)) (k0_pay4 (F := Ideal)) (iblk m c 9 t) (iblk m c 10 t) (iblk m c 11 t) (iblk m c 12 t) (iblk m c 4 t) p l).trans ?_
  rw [gate_blk, blk4_apply]
  rfl

/-- The new memory at local `(p, j)` of point `t` is `mem_out (32 t + p, j)`. -/
theorem mem_blk (c : Dev nD) (t : Fin cfg0.N) (p : Fin 32) (j : Fin 512) :
    k0_pay6 (k0_pay2 (iblk m c 1 t) (iblk m c 2 t) (iblk m c 5 t) (iblk m c 6 t) (iblk m c 0 t) (View.ld (iblk m c 7 t) r0_4) (View.ld (iblk m c 7 t) r0_5) (iblk m c 3 t) (iblk m c 8 t)) (ix2 p j) = (inp m c).memOut (row t p) j := by
  refine (pay6_apply (k0_pay2 (iblk m c 1 t) (iblk m c 2 t) (iblk m c 5 t) (iblk m c 6 t) (iblk m c 0 t) (View.ld (iblk m c 7 t) r0_4) (View.ld (iblk m c 7 t) r0_5) (iblk m c 3 t) (iblk m c 8 t)) p j).trans ?_
  unfold Inp.memOut
  simp only [fm_blk]

/-! ## What a point writes back -/

/-- Point `t` writes back rows `32 t …` of the gate array. -/
theorem flushed13_eq (c : Dev nD) (t : Fin cfg0.N) :
    (dats m 0 c).flushed 13 t = ((cfg0.win 13).blk t).view.read (Elt Ideal) (inp m c).gateArr := by
  show (cfg0.win 13).cut (grid0.coords t) ((dats m 0 c).after 13 t) = _
  rw [after0_13]
  unfold out0_13
  rw [View.canon_unit_zero hz2]
  simp only [View.ld_unit_zero (S := S32x32) hz2, View.ld_unit_zero (S := S32x1) hz2, View.ld_unit_zero (S := S512) hz1,
    View.ld_unit_zero (S := S32x32x512) hz3, View.ld_unit_zero (S := S32x512) hz2, View.ld_unit_zero (S := S1) hz1]
  refine funext fun (y : S32x32.Idx) => ?_
  obtain ⟨p, l, rfl⟩ : ∃ (p l : Fin 32), y = ix2 p l := ⟨y 0, y 1, eq_ix2 y⟩
  obtain ⟨e0, e1⟩ := idxRow_13 t
  show k0_pay5 (k0_pay2 (iblk m c 1 t) (iblk m c 2 t) (iblk m c 5 t) (iblk m c 6 t) (iblk m c 0 t) (View.ld (iblk m c 7 t) r0_4) (View.ld (iblk m c 7 t) r0_5) (iblk m c 3 t) (iblk m c 8 t)) (k0_pay3 (iblk m c 1 t) (iblk m c 2 t) (iblk m c 5 t) (iblk m c 6 t) (iblk m c 0 t) (View.ld (iblk m c 7 t) r0_4) (View.ld (iblk m c 7 t) r0_5) (iblk m c 3 t) (iblk m c 8 t)) (k0_pay4 (F := Ideal)) (iblk m c 9 t) (iblk m c 10 t) (iblk m c 11 t) (iblk m c 12 t) (ix2 p l) = (inp m c).gateArr (((cfg0.win 13).blk t).view.emb (ix2 p l))
  rw [gate_blk]
  have he : ((cfg0.win 13).blk t).view.emb (ix2 p l) = ix2 (row t p) l := funext fun a => Fin.ext (by
    match a with
    | ⟨0, _⟩ => show win0_13.index t (0 : Fin 2) * 32 + 1 * p.val = 32 * t.val + p.val; omega
    | ⟨1, _⟩ => show win0_13.index t (1 : Fin 2) * 32 + 1 * l.val = l.val; omega)
  rw [he]
  rfl

/-- Point `t` writes back rows `32 t …` of the hard-gate array. -/
theorem flushed14_eq (c : Dev nD) (t : Fin cfg0.N) :
    (dats m 0 c).flushed 14 t = ((cfg0.win 14).blk t).view.read (Elt Ideal) (inp m c).hardArr := by
  show (cfg0.win 14).cut (grid0.coords t) ((dats m 0 c).after 14 t) = _
  rw [after0_14]
  unfold out0_14
  rw [View.canon_unit_zero hz2]
  simp only [View.ld_unit_zero (S := S32x32) hz2, View.ld_unit_zero (S := S32x1) hz2, View.ld_unit_zero (S := S512) hz1,
    View.ld_unit_zero (S := S32x32x512) hz3, View.ld_unit_zero (S := S32x512) hz2, View.ld_unit_zero (S := S1) hz1]
  refine funext fun (y : S32x32.Idx) => ?_
  obtain ⟨p, l, rfl⟩ : ∃ (p l : Fin 32), y = ix2 p l := ⟨y 0, y 1, eq_ix2 y⟩
  obtain ⟨e0, e1⟩ := idxRow_14 t
  show k0_pay1 (k0_pay7 (k0_pay2 (iblk m c 1 t) (iblk m c 2 t) (iblk m c 5 t) (iblk m c 6 t) (iblk m c 0 t) (View.ld (iblk m c 7 t) r0_4) (View.ld (iblk m c 7 t) r0_5) (iblk m c 3 t) (iblk m c 8 t)) (k0_pay3 (iblk m c 1 t) (iblk m c 2 t) (iblk m c 5 t) (iblk m c 6 t) (iblk m c 0 t) (View.ld (iblk m c 7 t) r0_4) (View.ld (iblk m c 7 t) r0_5) (iblk m c 3 t) (iblk m c 8 t)) (k0_pay4 (F := Ideal)) (iblk m c 9 t) (iblk m c 10 t) (iblk m c 11 t) (iblk m c 12 t) (iblk m c 4 t)) (Scalar.ofBits .f32 0x3EAAAAAB#32) (ix2 p l)
    = (inp m c).hardArr (((cfg0.win 14).blk t).view.emb (ix2 p l))
  rw [hard_blk]
  have he : ((cfg0.win 14).blk t).view.emb (ix2 p l) = ix2 (row t p) l := funext fun a => Fin.ext (by
    match a with
    | ⟨0, _⟩ => show win0_14.index t (0 : Fin 2) * 32 + 1 * p.val = 32 * t.val + p.val; omega
    | ⟨1, _⟩ => show win0_14.index t (1 : Fin 2) * 32 + 1 * l.val = l.val; omega)
  rw [he]
  rfl

/-- Point `t` writes back rows `32 t …` of the new-memory array. -/
theorem flushed15_eq (c : Dev nD) (t : Fin cfg0.N) :
    (dats m 0 c).flushed 15 t = ((cfg0.win 15).blk t).view.read (Elt Ideal) (inp m c).memArr := by
  show (cfg0.win 15).cut (grid0.coords t) ((dats m 0 c).after 15 t) = _
  rw [after0_15]
  unfold out0_15
  rw [View.canon_unit_zero hz2]
  simp only [View.ld_unit_zero (S := S32x32) hz2, View.ld_unit_zero (S := S32x1) hz2, View.ld_unit_zero (S := S512) hz1,
    View.ld_unit_zero (S := S32x32x512) hz3, View.ld_unit_zero (S := S32x512) hz2]
  refine funext fun (y : S32x512.Idx) => ?_
  obtain ⟨p, j, rfl⟩ : ∃ (p : Fin 32) (j : Fin 512), y = ix2 p j := ⟨y 0, y 1, eq_ix2 y⟩
  obtain ⟨e0, e1⟩ := idxRow_15 t
  show k0_pay6 (k0_pay2 (iblk m c 1 t) (iblk m c 2 t) (iblk m c 5 t) (iblk m c 6 t) (iblk m c 0 t) (View.ld (iblk m c 7 t) r0_4) (View.ld (iblk m c 7 t) r0_5) (iblk m c 3 t) (iblk m c 8 t)) (ix2 p j) = (inp m c).memArr (((cfg0.win 15).blk t).view.emb (ix2 p j))
  rw [mem_blk]
  have he : ((cfg0.win 15).blk t).view.emb (ix2 p j) = ix2 (row t p) j := funext fun a => Fin.ext (by
    match a with
    | ⟨0, _⟩ => show win0_15.index t (0 : Fin 2) * 32 + 1 * p.val = 32 * t.val + p.val; omega
    | ⟨1, _⟩ => show win0_15.index t (1 : Fin 2) * 512 + 1 * j.val = j.val; omega)
  rw [he]
  rfl

end Cert.KernelVal

end
-- ==== Proof.KernelArr.lean ====
/-
  The arrays the kernel region leaves, and the results of the host operations after it.

  The 128 grid points' blocks tile each output array (point `t` covers rows `32 t … 32 t + 31`), so after the region the
  three arrays are the specification's gate, hard-gate and new-memory arrays. The host operations after the region then
  compute the penalty (a mean of sigmoids of the shifted gate, over 32), the number of kept edges (the sum of the hard
  gates) and the flat edge tensor (the hard gates scattered by edge id into a tensor of −1), each one function of those
  arrays (`penaltyOf`, `remainOf`, `scatterOf`), which the reference applies to its own arrays.
-/
import proofs.«162773_j29892972380504_1_alg».proof.Proof.KernelBlocks

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelVal

open Cert.KernelIdeal Cert.KernelIdeal.Gen Cert.Spec

/-! ## The host operations after the region, as functions of the region's arrays -/

/-- The penalty: the mean over all edges of `1 / (1 + exp (−((gate + 3) − β log(−γ/ζ))))`, over 32. -/
def penaltyOf (gate : FVec Ideal S4096x32 .f32) : FVec Ideal S_ .f32 :=
  Host.divf (Host.divf (Host.reduceAdd (Host.divf (broadcastInDim S4096x32 ![] bcast_S_S4096x32 (constant S_ .f32 0x3F800000#32)) (addf (broadcastInDim S4096x32 ![] bcast_S_S4096x32 (constant S_ .f32 0x3F800000#32)) (Host.exp (Host.negf (subf (addf gate (broadcastInDim S4096x32 ![] bcast_S_S4096x32 (constant S_ .f32 0x40400000#32))) (broadcastInDim S4096x32 ![] bcast_S_S4096x32 (constant S_ .f32 0xBF0956B5#32))))))) (constant S_ .f32 0x00000000#32) reducesTo_S4096x32_S_d0_1 h_S_) (constant S_ .f32 0x48000000#32)) (constant S_ .f32 0x42000000#32)

/-- The number of kept edges: the sum of the hard gates. -/
def remainOf (s : FVec Ideal S4096x32 .f32) : FVec Ideal S_ .f32 :=
  Host.reduceAdd s (constant S_ .f32 0x00000000#32) reducesTo_S4096x32_S_d0_1 h_S_

/-- The flat edge tensor: `−1` everywhere, then the hard gates written at the (wrapped) edge ids. -/
def scatterOf (eids : IVec S4096x32 32) (s : FVec Ideal S4096x32 .f32) : FVec Ideal S131072 .f32 :=
  Host.scatter scatter_S131072_S131072x1_S131072_n_0_0_1 (fun _ b => b) (broadcastInDim S131072 ![] bcast_S_S131072 (constant S_ .f32 0xBF800000#32)) (broadcastInDim S131072x1 ![0] bcast_S131072_S131072x1_0 (select (cmpi .slt (shapeCast _ eids shapeCasts_S4096x32_S131072) (broadcastInDim S131072 ![] bcast_S_S131072 (constantI S_ 32 0#32))) (addi (shapeCast _ eids shapeCasts_S4096x32_S131072) (broadcastInDim S131072 ![] bcast_S_S131072 (constantI S_ 32 131072#32))) (shapeCast _ eids shapeCasts_S4096x32_S131072))) (shapeCast _ s shapeCasts_S4096x32_S131072)

/-! ## The blocks tile the arrays -/

/-- The printed index maps, decided over the grid: point `t`'s block of each output array is block `(t, 0)`. -/
theorem blockIndex_facts : ∀ t : Fin cfg0.N,
    win0_13.index t (0 : Fin 2) = t.val ∧ win0_13.index t (1 : Fin 2) = 0
    ∧ win0_14.index t (0 : Fin 2) = t.val ∧ win0_14.index t (1 : Fin 2) = 0
    ∧ win0_15.index t (0 : Fin 2) = t.val ∧ win0_15.index t (1 : Fin 2) = 0 :=
  (by decide +kernel : ∀ t : Fin grid0.N, _)

/-- The grid has 128 points. -/
theorem gridN : cfg0.N = 128 := N_0

/-- An index of the gate array is in point `t`'s block iff each coordinate is in the block's range on its axis. -/
theorem mem_blk13 (t : Fin cfg0.N) (i : S4096x32.Idx) :
    i ∈ ((cfg0.win 13).blk t).view.set ↔ ∀ a : Fin 2, win0_13.index t a * S32x32.size a ≤ (i a).val ∧ (i a).val < win0_13.index t a * S32x32.size a + S32x32.size a := by
  show i ∈ ((View.whole main_v2_0).slice (win0_13.rect t)).set ↔ _
  rw [View.set_slice_whole, Rect.mem_set_unit]
  exact Iff.rfl

/-- An index of the hard-gate array is in point `t`'s block iff each coordinate is in the block's range on its axis. -/
theorem mem_blk14 (t : Fin cfg0.N) (i : S4096x32.Idx) :
    i ∈ ((cfg0.win 14).blk t).view.set ↔ ∀ a : Fin 2, win0_14.index t a * S32x32.size a ≤ (i a).val ∧ (i a).val < win0_14.index t a * S32x32.size a + S32x32.size a := by
  show i ∈ ((View.whole main_v2_1).slice (win0_14.rect t)).set ↔ _
  rw [View.set_slice_whole, Rect.mem_set_unit]
  exact Iff.rfl

/-- An index of the new-memory array is in point `t`'s block iff each coordinate is in the block's range on its axis. -/
theorem mem_blk15 (t : Fin cfg0.N) (i : S4096x512.Idx) :
    i ∈ ((cfg0.win 15).blk t).view.set ↔ ∀ a : Fin 2, win0_15.index t a * S32x512.size a ≤ (i a).val ∧ (i a).val < win0_15.index t a * S32x512.size a + S32x512.size a := by
  show i ∈ ((View.whole main_v2_2).slice (win0_15.rect t)).set ↔ _
  rw [View.set_slice_whole, Rect.mem_set_unit]
  exact Iff.rfl

/-- Row `r` of the gate array is in the block of point `r / 32`. -/
theorem cover13 (i : S4096x32.Idx) :
    ∃ t : Fin cfg0.N, (cfg0.win 13).flush t = true ∧ i ∈ ((cfg0.win 13).blk t).view.set := by
  have hi0 : (i 0).val < 4096 := (i 0).isLt
  have hi1 : (i 1).val < 32 := (i 1).isLt
  have hN : cfg0.N = 128 := gridN
  let t : Fin cfg0.N := ⟨(i 0).val / 32, by omega⟩
  obtain ⟨e0, e1, -, -, -, -⟩ := blockIndex_facts t
  have et : t.val = (i 0).val / 32 := rfl
  refine ⟨t, flush0_13 t, ?_⟩
  rw [mem_blk13]
  intro a
  match a with
  | ⟨0, _⟩ => show win0_13.index t (0 : Fin 2) * 32 ≤ (i 0).val ∧ (i 0).val < win0_13.index t (0 : Fin 2) * 32 + 32; omega
  | ⟨1, _⟩ => show win0_13.index t (1 : Fin 2) * 32 ≤ (i 1).val ∧ (i 1).val < win0_13.index t (1 : Fin 2) * 32 + 32; omega

/-- Row `r` of the hard-gate array is in the block of point `r / 32`. -/
theorem cover14 (i : S4096x32.Idx) :
    ∃ t : Fin cfg0.N, (cfg0.win 14).flush t = true ∧ i ∈ ((cfg0.win 14).blk t).view.set := by
  have hi0 : (i 0).val < 4096 := (i 0).isLt
  have hi1 : (i 1).val < 32 := (i 1).isLt
  have hN : cfg0.N = 128 := gridN
  let t : Fin cfg0.N := ⟨(i 0).val / 32, by omega⟩
  obtain ⟨-, -, e0, e1, -, -⟩ := blockIndex_facts t
  have et : t.val = (i 0).val / 32 := rfl
  refine ⟨t, flush0_14 t, ?_⟩
  rw [mem_blk14]
  intro a
  match a with
  | ⟨0, _⟩ => show win0_14.index t (0 : Fin 2) * 32 ≤ (i 0).val ∧ (i 0).val < win0_14.index t (0 : Fin 2) * 32 + 32; omega
  | ⟨1, _⟩ => show win0_14.index t (1 : Fin 2) * 32 ≤ (i 1).val ∧ (i 1).val < win0_14.index t (1 : Fin 2) * 32 + 32; omega

/-- Row `r` of the new-memory array is in the block of point `r / 32`. -/
theorem cover15 (i : S4096x512.Idx) :
    ∃ t : Fin cfg0.N, (cfg0.win 15).flush t = true ∧ i ∈ ((cfg0.win 15).blk t).view.set := by
  have hi0 : (i 0).val < 4096 := (i 0).isLt
  have hi1 : (i 1).val < 512 := (i 1).isLt
  have hN : cfg0.N = 128 := gridN
  let t : Fin cfg0.N := ⟨(i 0).val / 32, by omega⟩
  obtain ⟨-, -, -, -, e0, e1⟩ := blockIndex_facts t
  have et : t.val = (i 0).val / 32 := rfl
  refine ⟨t, flush0_15 t, ?_⟩
  rw [mem_blk15]
  intro a
  match a with
  | ⟨0, _⟩ => show win0_15.index t (0 : Fin 2) * 32 ≤ (i 0).val ∧ (i 0).val < win0_15.index t (0 : Fin 2) * 32 + 32; omega
  | ⟨1, _⟩ => show win0_15.index t (1 : Fin 2) * 512 ≤ (i 1).val ∧ (i 1).val < win0_15.index t (1 : Fin 2) * 512 + 512; omega

/-! ## The host operations after the region, run from any contents -/

/-- From any contents `W`, the host operations after the region leave the penalty's buffer at `penaltyOf` of `W`'s
    first output array. -/
theorem after_penalty (W : Valuation τ sig (Elt Ideal)) :
    StableHlo.after (hostOps1 : List (HloOp τ sig (Elt Ideal))) W (Proc.devRef .tc main_v15)
      = penaltyOf (W (Proc.devRef .tc main_v2_0)) := by
  after_results_simp
  rfl

/-- From any contents `W`, they leave the kept-edge count's buffer at `remainOf` of `W`'s second output array. -/
theorem after_remain (W : Valuation τ sig (Elt Ideal)) :
    StableHlo.after (hostOps1 : List (HloOp τ sig (Elt Ideal))) W (Proc.devRef .tc main_v16)
      = remainOf (W (Proc.devRef .tc main_v2_1)) := by
  after_results_simp
  rfl

/-- From any contents, they leave the last constant's buffer at that constant. -/
theorem after_cst9 (W : Valuation τ sig (Elt Ideal)) :
    StableHlo.after (hostOps1 : List (HloOp τ sig (Elt Ideal))) W (Proc.devRef .tc main_cst_9)
      = constant (F := Ideal) S_ .f32 0x48000000#32 := by
  after_results_simp

/-- From any contents `W`, they leave the flat edge tensor's buffer at `scatterOf` of `W`'s edge ids and second
    output array. -/
theorem after_scatter (W : Valuation τ sig (Elt Ideal)) :
    StableHlo.after (hostOps1 : List (HloOp τ sig (Elt Ideal))) W (Proc.devRef .tc main_v26)
      = scatterOf (W (Proc.devRef .tc main_arg13)) (W (Proc.devRef .tc main_v2_1)) := by
  after_results_simp
  rfl

variable (m : (ℓ : Loc nD τ sig) → Buf (Elt Ideal) ℓ) (ρ : Dev nD → PrngReg)

/-! ## The three arrays after the region -/

/-- After the region the first output array is the gate array. -/
theorem final13 (c : Dev nD) : (dats m 0 c).arrAt 13 cfg0.N = (inp m c).gateArr :=
  (dats m 0 c).arrAt_eq_of_cover 13 (inp m c).gateArr (fun t _ => flushed13_eq m c t) cover13

/-- After the region the second output array is the hard-gate array. -/
theorem final14 (c : Dev nD) : (dats m 0 c).arrAt 14 cfg0.N = (inp m c).hardArr :=
  (dats m 0 c).arrAt_eq_of_cover 14 (inp m c).hardArr (fun t _ => flushed14_eq m c t) cover14

/-- After the region the third output array is the new-memory array. -/
theorem final15 (c : Dev nD) : (dats m 0 c).arrAt 15 cfg0.N = (inp m c).memArr :=
  (dats m 0 c).arrAt_eq_of_cover 15 (inp m c).memArr (fun t _ => flushed15_eq m c t) cover15

/-! ## The host operations after the region, run from what the region leaves -/

/-- What the region leaves in the first output array, read through the contents the host operations start from. -/
theorem left13 (c : Dev nD) :
    Pipeline.withArrays spec0 c (V0 m c) (fun w => (dats m 0 c).arrAt w cfg0.N) (Proc.devRef .tc main_v2_0)
      = (inp m c).gateArr :=
  (Pipeline.withArrays_arr spec0 winFacts0.arr_inj c _ _ 13).trans (final13 m c)

/-- What the region leaves in the second output array, read the same way. -/
theorem left14 (c : Dev nD) :
    Pipeline.withArrays spec0 c (V0 m c) (fun w => (dats m 0 c).arrAt w cfg0.N) (Proc.devRef .tc main_v2_1)
      = (inp m c).hardArr :=
  (Pipeline.withArrays_arr spec0 winFacts0.arr_inj c _ _ 14).trans (final14 m c)

/-- The edge ids, which no window stages and no host operation before the region writes, read the same way. -/
theorem leftEids (c : Dev nD) :
    Pipeline.withArrays spec0 c (V0 m c) (fun w => (dats m 0 c).arrAt w cfg0.N) (Proc.devRef .tc main_arg13)
      = m ((c.tc : Thread nD τ).loc main_arg13) :=
  (Pipeline.withArrays_of_ne spec0 c (V0 m c) _ main_arg13
    (by exact (by decide : ∀ w, Pipeline.arrRef spec0 w ≠ main_arg13))).trans (V_main_arg13 m c)

/-- The penalty the program ends with. -/
theorem tail_penalty (c : Dev nD) :
    Pipeline.afterTail₀ cfgs (dats m) 0 (V0 m) [hostOps1] c main_v15 = penaltyOf (inp m c).gateArr := by
  unfold Pipeline.afterTail₀
  show StableHlo.after hostOps1 _ (Proc.devRef .tc main_v15) = _
  rw [after_penalty]
  exact congrArg penaltyOf (left13 m c)

/-- The kept-edge count the program ends with. -/
theorem tail_remain (c : Dev nD) :
    Pipeline.afterTail₀ cfgs (dats m) 0 (V0 m) [hostOps1] c main_v16 = remainOf (inp m c).hardArr := by
  unfold Pipeline.afterTail₀
  show StableHlo.after hostOps1 _ (Proc.devRef .tc main_v16) = _
  rw [after_remain]
  exact congrArg remainOf (left14 m c)

/-- The constant the program ends with. -/
theorem tail_cst9 (c : Dev nD) :
    Pipeline.afterTail₀ cfgs (dats m) 0 (V0 m) [hostOps1] c main_cst_9 = constant (F := Ideal) S_ .f32 0x48000000#32 := by
  unfold Pipeline.afterTail₀
  show StableHlo.after hostOps1 _ (Proc.devRef .tc main_cst_9) = _
  rw [after_cst9]

/-- The flat edge tensor the program ends with. -/
theorem tail_scatter (c : Dev nD) :
    Pipeline.afterTail₀ cfgs (dats m) 0 (V0 m) [hostOps1] c main_v26
      = scatterOf (m ((c.tc : Thread nD τ).loc main_arg13)) (inp m c).hardArr := by
  unfold Pipeline.afterTail₀
  show StableHlo.after hostOps1 _ (Proc.devRef .tc main_v26) = _
  rw [after_scatter]
  exact congrArg₂ scatterOf (leftEids m c) (left14 m c)

/-! ## The run, read -/

/-- Every weakly fair execution of the kernel program ends with its five results at these functions of the arguments,
    the arguments unchanged. -/
theorem run : θ_run defs (onTc (τ := τ) (main (F := Ideal))) ⟨m, fun _ => 0, ρ⟩ fun r => ∀ c : Dev nD,
      r.2.mem ((c.tc : Thread nD τ).loc main_v15) = penaltyOf (inp m c).gateArr
      ∧ r.2.mem ((c.tc : Thread nD τ).loc main_v16) = remainOf (inp m c).hardArr
      ∧ r.2.mem ((c.tc : Thread nD τ).loc main_cst_9) = constant (F := Ideal) S_ .f32 0x48000000#32
      ∧ r.2.mem ((c.tc : Thread nD τ).loc main_v26) = scatterOf (m ((c.tc : Thread nD τ).loc main_arg13)) (inp m c).hardArr
      ∧ r.2.mem ((c.tc : Thread nD τ).loc main_v2_2) = (inp m c).memArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨
      ((h c).2 main_v15 (Pipeline.mem_restRefs_of main_v15 (by decide) (by decide))).trans (tail_penalty m c),
      ((h c).2 main_v16 (Pipeline.mem_restRefs_of main_v16 (by decide) (by decide))).trans (tail_remain m c),
      ((h c).2 main_cst_9 (Pipeline.mem_restRefs_of main_cst_9 (by decide) (by decide))).trans (tail_cst9 m c),
      ((h c).2 main_v26 (Pipeline.mem_restRefs_of main_v26 (by decide) (by decide))).trans (tail_scatter m c),
      ((h c).1 15).trans (final15 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      (((h c).2 main_arg11 (Pipeline.mem_restRefs_of main_arg11 (by decide) (by decide))).trans (W_main_arg11 m (dats m) c)),
      ((h c).1 12).trans (((dats m 0 c).arrAt_in 12 rfl _).trans ((A_eq m c 12).trans (V_main_arg12 m c))),
      (((h c).2 main_arg13 (Pipeline.mem_restRefs_of main_arg13 (by decide) (by decide))).trans (W_main_arg13 m (dats m) c))⟩)
    (run_main m ρ)

end Cert.KernelVal

end
-- ==== Proof.lean ====
/-
  A temporal-graph message-passing layer with a hard-concrete edge gate: the Pallas kernel against its jnp reference,
  over the extended reals.

  Per node `n` and neighbour `l` the layer multiplies the concatenated message `[feat + cos (dt · basis + phase) | memory]`
  by `W0` and adds `b0`; the kernel never builds the concatenation: it adds the product of the edge half with the top
  rows of `W0` to (the product of the memory row with the bottom rows, plus `b0`). A sum over 1024 terms is the sum of
  its halves and addition on the extended reals is associative, so both programs hold the same array `fm`, and from it
  the same layer norm, gate, clipped sigmoid `s`, threshold `hard` and neighbour mean (Proof/Spec.lean). The reference
  returns the straight-through value `s + (hard − s)` where the kernel stores `hard`: `s` lies in `[0, 1]`, a real number,
  so the two agree. The kernel region's three arrays are read block by block off its frame run (Proof/KernelPay.lean,
  Proof/KernelBlocks.lean, Proof/KernelArr.lean), the reference's off its run one operation at a time
  (Proof/RefValue.lean); the host operations after the region — the penalty, the kept-edge count, the scatter by edge
  id — are the same functions on both sides, applied here to equal arrays. No step uses that the inputs are finite.
-/
import proofs.«162773_j29892972380504_1_alg».proof.Defs
import proofs.«162773_j29892972380504_1_alg».proof.Proof.Gen.Kernel
import proofs.«162773_j29892972380504_1_alg».proof.Proof.Gen.Kernel.Skeleton
import proofs.«162773_j29892972380504_1_alg».proof.Proof.Gen.Kernel.Launch
import proofs.«162773_j29892972380504_1_alg».proof.Proof.Gen.Kernel.Points
import proofs.«162773_j29892972380504_1_alg».proof.Proof.Gen.Kernel.Frame
import proofs.«162773_j29892972380504_1_alg».proof.Proof.Gen.KernelIdeal
import proofs.«162773_j29892972380504_1_alg».proof.Proof.Gen.KernelIdeal.Skeleton
import proofs.«162773_j29892972380504_1_alg».proof.Proof.Gen.KernelIdeal.Launch
import proofs.«162773_j29892972380504_1_alg».proof.Proof.Gen.KernelIdeal.Points
import proofs.«162773_j29892972380504_1_alg».proof.Proof.Gen.KernelIdeal.Frame
import proofs.«162773_j29892972380504_1_alg».proof.Proof.Gen.ReferenceIdeal
import proofs.«162773_j29892972380504_1_alg».proof.Proof.Gen.ReferenceIdeal.Run
import proofs.«162773_j29892972380504_1_alg».proof.Proof.Gen.ReferenceIdeal.Read
import proofs.«162773_j29892972380504_1_alg».proof.Proof.Gen.Pre_finite_inputs
import proofs.«162773_j29892972380504_1_alg».proof.Proof.RefValue
import proofs.«162773_j29892972380504_1_alg».proof.Proof.KernelArr
import Idealize.ShloMosaic.Adequacy
import Idealize.ShloMosaic.Init

noncomputable section

namespace Cert.Proof

open Idealize.ShloMosaic Idealize.ShloMosaic.TcCoe Idealize.SL.Sem

/-! ## The reference's results are the host tail's functions of its own three arrays -/

section RefTail

open Cert.ReferenceIdeal Cert.ReferenceIdeal.Read

variable (x0 : (⟨S4096x32x512, .f32⟩ : BufTy).Contents (Elt Ideal)) (x1 : (⟨S4096x32, .f32⟩ : BufTy).Contents (Elt Ideal)) (x2 : (⟨S4096, .f32⟩ : BufTy).Contents (Elt Ideal)) (x3 : (⟨S4096x512, .f32⟩ : BufTy).Contents (Elt Ideal)) (x4 : (⟨S4096x32, .f32⟩ : BufTy).Contents (Elt Ideal)) (x5 x6 : (⟨S512, .f32⟩ : BufTy).Contents (Elt Ideal)) (x7 : (⟨S1024x512, .f32⟩ : BufTy).Contents (Elt Ideal)) (x8 x9 x10 : (⟨S512, .f32⟩ : BufTy).Contents (Elt Ideal)) (x11 : (⟨S512x1, .f32⟩ : BufTy).Contents (Elt Ideal)) (x12 : (⟨S1, .f32⟩ : BufTy).Contents (Elt Ideal)) (x13 : (⟨S4096x32, .i32⟩ : BufTy).Contents (Elt Ideal))

/-- The reference's penalty is the tail's penalty of its gate array: the same operations, literal by literal. -/
theorem ref_penalty :
    val_main_v87 (F := Ideal) x0 x1 x2 x3 x5 x6 x7 x8 x9 x10 x11 x12
      = Cert.KernelVal.penaltyOf (val_main_v48 (F := Ideal) x0 x1 x2 x3 x5 x6 x7 x8 x9 x10 x11 x12) := rfl

/-- The reference's kept-edge count is the sum of its straight-through array. -/
theorem ref_remain :
    val_main_v88 (F := Ideal) x0 x1 x2 x3 x4 x5 x6 x7 x8 x9 x10 x11 x12
      = Cert.KernelVal.remainOf (val_main_v86 (F := Ideal) x0 x1 x2 x3 x4 x5 x6 x7 x8 x9 x10 x11 x12) := rfl

/-- The reference's flat edge tensor is the scatter of its straight-through array by the same edge ids. -/
theorem ref_scatter :
    val_main_v98 (F := Ideal) x0 x1 x2 x3 x4 x5 x6 x7 x8 x9 x10 x11 x12 x13
      = Cert.KernelVal.scatterOf x13 (val_main_v86 (F := Ideal) x0 x1 x2 x3 x4 x5 x6 x7 x8 x9 x10 x11 x12) := rfl

end RefTail

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => (h c).2.2.2.2.2) (Cert.ReferenceIdeal.Value.run (F := Ideal) m ρ)

/-- The ideal pass rewrote nothing: the idealized kernel is the kernel's own text read over the extended reals. -/
theorem preserves : Cert.preserves_Kernel_KernelIdeal := trivial

/-- From memories that agree on the arguments both programs end with the penalty, the kept-edge count, the edge total,
    the flat edge tensor and the new memory of the specification's arrays of those arguments. -/
theorem algebraic : Cert.algebraic_KernelIdeal_ReferenceIdeal := by
  intro m ρ m' ρ' _ hagree
  refine ⟨fun c => Cert.KernelVal.penaltyOf (Cert.KernelVal.inp m c).gateArr,
    fun c => Cert.KernelVal.remainOf (Cert.KernelVal.inp m c).hardArr,
    fun _ => constant (F := Ideal) Cert.KernelIdeal.S_ .f32 0x48000000#32,
    fun c => Cert.KernelVal.scatterOf (m ((c.tc : Thread Cert.KernelIdeal.nD Cert.KernelIdeal.τ).loc Cert.KernelIdeal.main_arg13)) (Cert.KernelVal.inp m c).hardArr,
    fun c => (Cert.KernelVal.inp m c).memArr,
    Cert.KernelVal.run m ρ, ?_⟩
  refine (θ_run Cert.ReferenceIdeal.defs _ _).mono (fun r h c => ?_) (Cert.ReferenceIdeal.Value.run (F := Ideal) m' ρ')
  obtain ⟨h0, h1, h2, h3, h4, hargs⟩ := h c
  obtain ⟨a0, a1, a2, a3, a4, a5, a6, a7, a8, a9, a10, a11, a12, a13⟩ := hagree c
  have hinp : Cert.RefValue.inp (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = Cert.KernelVal.inp m c := by
    rw [a0, a1, a2, a3, a4, a5, a6, a7, a8, a9, a10, a11, a12]
    rfl
  have hgate := Cert.RefValue.gate_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
  have hhard := Cert.RefValue.hard_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
  have hmem := Cert.RefValue.mem_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
  rw [hinp] at hgate hhard hmem
  refine ⟨h0.trans ?_, h1.trans ?_, h2, h3.trans ?_, h4.trans ?_, hargs⟩
  · rw [Cert.ReferenceIdeal.Read.val_main_v87_eq, ref_penalty, hgate]
  · rw [Cert.ReferenceIdeal.Read.val_main_v88_eq, ref_remain, hhard]
  · rw [Cert.ReferenceIdeal.Read.val_main_v98_eq, ref_scatter, hhard, a13]
  · exact (Cert.ReferenceIdeal.Read.val_main_v51_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))).trans hmem

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
